-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x6156 : Shape := ⟨2, ![2048, 6156]⟩
abbrev S3x6156 : Shape := ⟨2, ![3, 6156]⟩
abbrev S3 : Shape := ⟨1, ![3]⟩
abbrev S6156x6156 : Shape := ⟨2, ![6156, 6156]⟩
abbrev S3x6159 : Shape := ⟨2, ![3, 6159]⟩
abbrev S_ : Shape := ⟨0, ![]⟩

class Facts : Prop where
  bcast_S_S2048x6156 : S_.BroadcastsInDim S2048x6156 (![] : Fin 0 → Fin S2048x6156.rank)
  reducesTo_S2048x6156_S_d0_1 : S2048x6156.ReducesTo [0, 1] S_
  h_S_ : 0 < S_.numel
  bcast_S_S3x6156 : S_.BroadcastsInDim S3x6156 (![] : Fin 0 → Fin S3x6156.rank)
  reducesTo_S3x6156_S_d0_1 : S3x6156.ReducesTo [0, 1] S_
  bcast_S_S3 : S_.BroadcastsInDim S3 (![] : Fin 0 → Fin S3.rank)
  reducesTo_S3_S_d0 : S3.ReducesTo [0] S_
  bcast_S_S6156x6156 : S_.BroadcastsInDim S6156x6156 (![] : Fin 0 → Fin S6156x6156.rank)
  reducesTo_S6156x6156_S_d0_1 : S6156x6156.ReducesTo [0, 1] S_
  bcast_S_S3x6159 : S_.BroadcastsInDim S3x6159 (![] : Fin 0 → Fin S3x6159.rank)
  reducesTo_S3x6159_S_d0_1 : S3x6159.ReducesTo [0, 1] S_

variable [Facts]

def fn_part1 {F : FTy → Type} [FloatOps F] (main_arg4 : FVec F S3x6159 .f32) (main_arg5 : FVec F S3 .f32) (main_v13 : IVec S_ 1) (main_v16 : IVec S6156x6156 1) : IVec S_ 1 :=
  let main_c_5 : IVec S_ 1 := constantI S_ 1 1#1
  let main_v17 : IVec S_ 1 := (fun x v => Host.reduce IntOp.andi x v reducesTo_S6156x6156_S_d0_1 h_S_) main_v16 main_c_5
  let main_v18 : IVec S_ 1 := andi main_v13 main_v17
  let main_v19 : FVec F S3x6159 .f32 := Host.absf main_arg4
  let main_cst_6 : FVec F S_ .f32 := constant S_ .f32 0x7F800000#32
  let main_v20 : FVec F S3x6159 .f32 := broadcastInDim S3x6159 ![] bcast_S_S3x6159 main_cst_6
  let main_v21 : IVec S3x6159 1 := cmpf .olt main_v19 main_v20
  let main_c_7 : IVec S_ 1 := constantI S_ 1 1#1
  let main_v22 : IVec S_ 1 := (fun x v => Host.reduce IntOp.andi x v reducesTo_S3x6159_S_d0_1 h_S_) main_v21 main_c_7
  let main_v23 : IVec S_ 1 := andi main_v18 main_v22
  let main_v24 : FVec F S3 .f32 := Host.absf main_arg5
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  main_v28

def fn {F : FTy → Type} [FloatOps F] (main_arg0 : FVec F S2048x6156 .f32) (main_arg1 : FVec F S3x6156 .f32) (main_arg2 : FVec F S3 .f32) (main_arg3 : FVec F S6156x6156 .f32) (main_arg4 : FVec F S3x6159 .f32) (main_arg5 : FVec F S3 .f32) : IVec S_ 1 :=
  let main_v0 : FVec F S2048x6156 .f32 := Host.absf main_arg0
  let main_cst : FVec F S_ .f32 := constant S_ .f32 0x7F800000#32
  let main_v1 : FVec F S2048x6156 .f32 := broadcastInDim S2048x6156 ![] bcast_S_S2048x6156 main_cst
  let main_v2 : IVec S2048x6156 1 := cmpf .olt main_v0 main_v1
  let main_c : IVec S_ 1 := constantI S_ 1 1#1
  let main_v3 : IVec S_ 1 := (fun x v => Host.reduce IntOp.andi x v reducesTo_S2048x6156_S_d0_1 h_S_) main_v2 main_c
  let main_v4 : FVec F S3x6156 .f32 := Host.absf main_arg1
  let main_cst_0 : FVec F S_ .f32 := constant S_ .f32 0x7F800000#32
  let main_v5 : FVec F S3x6156 .f32 := broadcastInDim S3x6156 ![] bcast_S_S3x6156 main_cst_0
  let main_v6 : IVec S3x6156 1 := cmpf .olt main_v4 main_v5
  let main_c_1 : IVec S_ 1 := constantI S_ 1 1#1
  let main_v7 : IVec S_ 1 := (fun x v => Host.reduce IntOp.andi x v reducesTo_S3x6156_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S6156x6156 .f32 := Host.absf main_arg3
  let main_cst_4 : FVec F S_ .f32 := constant S_ .f32 0x7F800000#32
  let main_v15 : FVec F S6156x6156 .f32 := broadcastInDim S6156x6156 ![] bcast_S_S6156x6156 main_cst_4
  let main_v16 : IVec S6156x6156 1 := cmpf .olt main_v14 main_v15
  fn_part1 (F := F) main_arg4 main_arg5 main_v13 main_v16
-- ==== Kernel.lean ====
abbrev S2048x6156 : Shape := ⟨2, ![2048, 6156]⟩
abbrev S3x6156 : Shape := ⟨2, ![3, 6156]⟩
abbrev S3 : Shape := ⟨1, ![3]⟩
abbrev S6156x6156 : Shape := ⟨2, ![6156, 6156]⟩
abbrev S3x6159 : Shape := ⟨2, ![3, 6159]⟩
abbrev S_ : Shape := ⟨0, ![]⟩
abbrev S2048x6400 : Shape := ⟨2, ![2048, 6400]⟩
abbrev S6400x6400 : Shape := ⟨2, ![6400, 6400]⟩
abbrev S1024x640 : Shape := ⟨2, ![1024, 640]⟩
abbrev S1280x640 : Shape := ⟨2, ![1280, 640]⟩
abbrev S1024x1280 : Shape := ⟨2, ![1024, 1280]⟩
abbrev S640x1280 : Shape := ⟨2, ![640, 1280]⟩
abbrev S6156x3 : Shape := ⟨2, ![6156, 3]⟩
abbrev S2048x3 : Shape := ⟨2, ![2048, 3]⟩
abbrev S1x3 : Shape := ⟨2, ![1, 3]⟩
abbrev S2048x6159 : Shape := ⟨2, ![2048, 6159]⟩
abbrev S6159x3 : Shape := ⟨2, ![6159, 3]⟩

abbrev nBuf : Space → Nat
  | .hbm => 25
  | .vmem => 9
  | .smem => 0
  | _ => 0

abbrev bufTy : (tb : Table) → Fin (tcTables nBuf tb) → BufTy
  | .hbm, ⟨0, _⟩ => ⟨S2048x6156, .f32⟩
  | .hbm, ⟨1, _⟩ => ⟨S3x6156, .f32⟩
  | .hbm, ⟨2, _⟩ => ⟨S3, .f32⟩
  | .hbm, ⟨3, _⟩ => ⟨S6156x6156, .f32⟩
  | .hbm, ⟨4, _⟩ => ⟨S3x6159, .f32⟩
  | .hbm, ⟨5, _⟩ => ⟨S3, .f32⟩
  | .hbm, ⟨6, _⟩ => ⟨S_, .i32⟩
  | .hbm, ⟨7, _⟩ => ⟨S_, .f32⟩
  | .hbm, ⟨8, _⟩ => ⟨S2048x6400, .f32⟩
  | .hbm, ⟨9, _⟩ => ⟨S_, .i32⟩
  | .hbm, ⟨10, _⟩ => ⟨S_, .f32⟩
  | .hbm, ⟨11, _⟩ => ⟨S6400x6400, .f32⟩
  | .hbm, ⟨12, _⟩ => ⟨S2048x6400, .f32⟩
  | .hbm, ⟨13, _⟩ => ⟨S2048x6156, .f32⟩
  | .hbm, ⟨14, _⟩ => ⟨S6156x3, .f32⟩
  | .hbm, ⟨15, _⟩ => ⟨S2048x3, .f32⟩
  | .hbm, ⟨16, _⟩ => ⟨S1x3, .f32⟩
  | .hbm, ⟨17, _⟩ => ⟨S2048x3, .f32⟩
  | .hbm, ⟨18, _⟩ => ⟨S2048x3, .f32⟩
  | .hbm, ⟨19, _⟩ => ⟨S2048x6159, .f32⟩
  | .hbm, ⟨20, _⟩ => ⟨S6159x3, .f32⟩
  | .hbm, ⟨21, _⟩ => ⟨S2048x3, .f32⟩
  | .hbm, ⟨22, _⟩ => ⟨S1x3, .f32⟩
  | .hbm, ⟨23, _⟩ => ⟨S2048x3, .f32⟩
  | .hbm, ⟨24, _⟩ => ⟨S2048x3, .f32⟩
  | .local _ .vmem, ⟨0, _⟩ => ⟨S1024x640, .f32⟩
  | .local _ .vmem, ⟨1, _⟩ => ⟨S1024x640, .f32⟩
  | .local _ .vmem, ⟨2, _⟩ => ⟨S1280x640, .f32⟩
  | .local _ .vmem, ⟨3, _⟩ => ⟨S1280x640, .f32⟩
  | .local _ .vmem, ⟨4, _⟩ => ⟨S1024x1280, .f32⟩
  | .local _ .vmem, ⟨5, _⟩ => ⟨S1024x1280, .f32⟩
  | .local _ .vmem, ⟨6, _⟩ => ⟨S1024x1280, .f32⟩
  | .local _ .vmem, ⟨7, _⟩ => ⟨S1024x1280, .f32⟩
  | .local _ .vmem, ⟨8, _⟩ => ⟨S1024x1280, .f32⟩
  | _, _ => ⟨S2048x6156, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 5, 10], ![false, false, false]⟩

def k0_cond2 (i : grid0.Coords) : BitVec 1 :=
  let arg2 : BitVec 32 := BitVec.ofNat 32 (i 2).val
  let c9_i32 : BitVec 32 := 9#32
  let v16 : BitVec 1 := Scalar.cmpi .eq arg2 c9_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  pads_S2048x6156_S2048x6400_000_02440 : S2048x6156.Pads (![0, 0] : Fin 2 → Nat) ![0, 244] ![0, 0] S2048x6400
  h_S_ : 0 < S_.numel
  pads_S6156x6156_S6400x6400_02440_02440 : S6156x6156.Pads (![0, 0] : Fin 2 → Nat) ![244, 244] ![0, 0] S6400x6400
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  inb_S1024x640_S1024x640_0_0 : ∀ a, (![0, 0] : Fin 2 → Nat) a + S1024x640.size a ≤ S1024x640.size a
  h_S1024x640 : 0 < S1024x640.numel
  shapeCasts_S1024x640_S1024x640 : S1024x640.ShapeCasts S1024x640
  bitsLt_bf16_f32 : FTy.bits .bf16 < FTy.bits .f32
  inb_S1280x640_S1280x640_0_0 : ∀ a, (![0, 0] : Fin 2 → Nat) a + S1280x640.size a ≤ S1280x640.size a
  h_S1280x640 : 0 < S1280x640.numel
  shapeCasts_S1280x640_S1280x640 : S1280x640.ShapeCasts S1280x640
  transposes_S1280x640_p1_0_S640x1280 : S1280x640.Transposes [1, 0] S640x1280
  slices_S2048x6400_S2048x6156_0_0 : S2048x6400.Slices ![0, 0] S2048x6156
  transposes_S3x6156_S6156x3_1_0 : S3x6156.Transposes [1, 0] S6156x3
  bcast_S3_S1x3_1 : S3.BroadcastsInDim S1x3 (![1] : Fin 1 → Fin S1x3.rank)
  bcast_S1x3_S2048x3_0_1 : S1x3.BroadcastsInDim S2048x3 (![0, 1] : Fin 2 → Fin S2048x3.rank)
  concatenates_S2048x3_S2048x6156_S2048x6159_d1 : Shape.Concatenates [S2048x3, S2048x6156] S2048x6159 1
  transposes_S3x6159_S6159x3_1_0 : S3x6159.Transposes [1, 0] S6159x3
  dot_S1024x640_S640x1280_S1024x1280_1_0_0_1_n_n_wf : DotDims.WF S1024x640 S640x1280 S1024x1280 [1] [0] [0] [1] [] []
  dot_S2048x6156_S6156x3_S2048x3_1_0_0_1_n_n_wf : DotDims.WF S2048x6156 S6156x3 S2048x3 [1] [0] [0] [1] [] []
  dot_S2048x6159_S6159x3_S2048x3_1_0_0_1_n_n_wf : DotDims.WF S2048x6159 S6159x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x640.size a ≤ S2048x6400.size a
  hwx0_0 : ∀ i : grid0.Coords, EltTy.bits .f32 = 32 ∨ (Rect.block (s := S2048x6400) S1024x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x640.size a ≤ S6400x6400.size a
  hwx0_1 : ∀ i : grid0.Coords, EltTy.bits .f32 = 32 ∨ (Rect.block (s := S6400x6400) S1280x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1280.size a ≤ S2048x6400.size a
  hwx0_2 : ∀ i : grid0.Coords, EltTy.bits .f32 = 32 ∨ (Rect.block (s := S2048x6400) S1024x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1280.size a ≤ S2048x6400.size a
  hwx0_3 : ∀ i : grid0.Coords, EltTy.bits .f32 = 32 ∨ (Rect.block (s := S2048x6400) S1024x1280.size (cc0_transform_3 i) (hinb0_3 i)).WholeWords (EltTy.packing .f32)

variable [Facts₀]

def dot_S1024x640_S640x1280_S1024x1280_1_0_0_1_n_n : DotDims S1024x640 S640x1280 S1024x1280 where
  lhsContracting := [1]
  rhsContracting := [0]
  lhsNonContracting := [0]
  rhsNonContracting := [1]
  lhsBatch := []
  rhsBatch := []
  wf := dot_S1024x640_S640x1280_S1024x1280_1_0_0_1_n_n_wf
def dot_S2048x6156_S6156x3_S2048x3_1_0_0_1_n_n : DotDims S2048x6156 S6156x3 S2048x3 where
  lhsContracting := [1]
  rhsContracting := [0]
  lhsNonContracting := [0]
  rhsNonContracting := [1]
  lhsBatch := []
  rhsBatch := []
  wf := dot_S2048x6156_S6156x3_S2048x3_1_0_0_1_n_n_wf
def dot_S2048x6159_S6159x3_S2048x3_1_0_0_1_n_n : DotDims S2048x6159 S6159x3 S2048x3 where
  lhsContracting := [1]
  rhsContracting := [0]
  lhsNonContracting := [0]
  rhsNonContracting := [1]
  lhsBatch := []
  rhsBatch := []
  wf := dot_S2048x6159_S6159x3_S2048x3_1_0_0_1_n_n_wf

abbrev win0_0 : Pipeline.Window sig grid0 :=
  Pipeline.Window.ofSpec (Memref.whole main_v0) S1024x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1280x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x6156 : Shape := ⟨2, ![2048, 6156]⟩
abbrev S3x6156 : Shape := ⟨2, ![3, 6156]⟩
abbrev S3 : Shape := ⟨1, ![3]⟩
abbrev S6156x6156 : Shape := ⟨2, ![6156, 6156]⟩
abbrev S3x6159 : Shape := ⟨2, ![3, 6159]⟩
abbrev S6156x3 : Shape := ⟨2, ![6156, 3]⟩
abbrev S2048x3 : Shape := ⟨2, ![2048, 3]⟩
abbrev S1x3 : Shape := ⟨2, ![1, 3]⟩
abbrev S2048x6159 : Shape := ⟨2, ![2048, 6159]⟩
abbrev S6159x3 : Shape := ⟨2, ![6159, 3]⟩

abbrev nBuf : Space → Nat
  | .hbm => 20
  | .vmem => 0
  | .smem => 0
  | _ => 0

abbrev bufTy : (tb : Table) → Fin (tcTables nBuf tb) → BufTy
  | .hbm, ⟨0, _⟩ => ⟨S2048x6156, .f32⟩
  | .hbm, ⟨1, _⟩ => ⟨S3x6156, .f32⟩
  | .hbm, ⟨2, _⟩ => ⟨S3, .f32⟩
  | .hbm, ⟨3, _⟩ => ⟨S6156x6156, .f32⟩
  | .hbm, ⟨4, _⟩ => ⟨S3x6159, .f32⟩
  | .hbm, ⟨5, _⟩ => ⟨S3, .f32⟩
  | .hbm, ⟨6, _⟩ => ⟨S6156x3, .f32⟩
  | .hbm, ⟨7, _⟩ => ⟨S2048x3, .f32⟩
  | .hbm, ⟨8, _⟩ => ⟨S1x3, .f32⟩
  | .hbm, ⟨9, _⟩ => ⟨S2048x3, .f32⟩
  | .hbm, ⟨10, _⟩ => ⟨S2048x3, .f32⟩
  | .hbm, ⟨11, _⟩ => ⟨S6156x6156, .f32⟩
  | .hbm, ⟨12, _⟩ => ⟨S2048x6156, .f32⟩
  | .hbm, ⟨13, _⟩ => ⟨S2048x6156, .f32⟩
  | .hbm, ⟨14, _⟩ => ⟨S2048x6159, .f32⟩
  | .hbm, ⟨15, _⟩ => ⟨S6159x3, .f32⟩
  | .hbm, ⟨16, _⟩ => ⟨S2048x3, .f32⟩
  | .hbm, ⟨17, _⟩ => ⟨S1x3, .f32⟩
  | .hbm, ⟨18, _⟩ => ⟨S2048x3, .f32⟩
  | .hbm, ⟨19, _⟩ => ⟨S2048x3, .f32⟩
  | _, _ => ⟨S2048x6156, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  transposes_S3x6156_S6156x3_1_0 : S3x6156.Transposes [1, 0] S6156x3
  bcast_S3_S1x3_1 : S3.BroadcastsInDim S1x3 (![1] : Fin 1 → Fin S1x3.rank)
  bcast_S1x3_S2048x3_0_1 : S1x3.BroadcastsInDim S2048x3 (![0, 1] : Fin 2 → Fin S2048x3.rank)
  transposes_S6156x6156_S6156x6156_1_0 : S6156x6156.Transposes [1, 0] S6156x6156
  concatenates_S2048x3_S2048x6156_S2048x6159_d1 : Shape.Concatenates [S2048x3, S2048x6156] S2048x6159 1
  transposes_S3x6159_S6159x3_1_0 : S3x6159.Transposes [1, 0] S6159x3
  dot_S2048x6156_S6156x3_S2048x3_1_0_0_1_n_n_wf : DotDims.WF S2048x6156 S6156x3 S2048x3 [1] [0] [0] [1] [] []
  dot_S2048x6156_S6156x6156_S2048x6156_1_0_0_1_n_n_wf : DotDims.WF S2048x6156 S6156x6156 S2048x6156 [1] [0] [0] [1] [] []
  dot_S2048x6159_S6159x3_S2048x3_1_0_0_1_n_n_wf : DotDims.WF S2048x6159 S6159x3 S2048x3 [1] [0] [0] [1] [] []

variable [Facts₀]

def dot_S2048x6156_S6156x3_S2048x3_1_0_0_1_n_n : DotDims S2048x6156 S6156x3 S2048x3 where
  lhsContracting := [1]
  rhsContracting := [0]
  lhsNonContracting := [0]
  rhsNonContracting := [1]
  lhsBatch := []
  rhsBatch := []
  wf := dot_S2048x6156_S6156x3_S2048x3_1_0_0_1_n_n_wf
def dot_S2048x6156_S6156x6156_S2048x6156_1_0_0_1_n_n : DotDims S2048x6156 S6156x6156 S2048x6156 where
  lhsContracting := [1]
  rhsContracting := [0]
  lhsNonContracting := [0]
  rhsNonContracting := [1]
  lhsBatch := []
  rhsBatch := []
  wf := dot_S2048x6156_S6156x6156_S2048x6156_1_0_0_1_n_n_wf
def dot_S2048x6159_S6159x3_S2048x3_1_0_0_1_n_n : DotDims S2048x6159 S6159x3 S2048x3 where
  lhsContracting := [1]
  rhsContracting := [0]
  lhsNonContracting := [0]
  rhsNonContracting := [1]
  lhsBatch := []
  rhsBatch := []
  wf := dot_S2048x6159_S6159x3_S2048x3_1_0_0_1_n_n_wf

class Facts : Prop extends Facts₀ where

variable [Facts]
-- ==== Proof.KbCases.lean ====
/-
  The interaction kernel on its grid of 2 x 5 x 10 points (row tile b, column tile j, contraction tile k; k runs
  fastest): which of its two conditionals a point takes, where the output window is idle, the staging memrefs the
  pipeline hands the body at a point, and the arrays as the region finds them.

  The body zeroes its accumulator where k = 0, adds one 1024x640 by 640x1280 product to it at every point, and
  stores x_j * accumulator into the output block where k = 9. Since k = point mod 10, the first conditional is taken
  exactly at the points = 0 (mod 10) and the second exactly at the points = 9 (mod 10); the output block is written
  back exactly at the latter, and is idle everywhere else.
-/
import proofs.«137312_j20169166422772_1_alg».proof.Proof.Gen.Kernel.Launch
import proofs.«137312_j20169166422772_1_alg».proof.Proof.Gen.Kernel.Skeleton
import proofs.«137312_j20169166422772_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays at the region's entry -/

/-- Core `c`'s buffers when the region is entered: the launch contents after the two zero constants and the two
    zero-paddings (x to 2048x6400, w_int to 6400x6400) that precede it. -/
abbrev V0 (c : Dev nD) : Valuation τ sig (Elt F) :=
  StableHlo.after (List.flatten [hostOps0, hostOps0_1, hostOps0_2, hostOps0_3]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditionals, over the grid -/

/-- "k = 0": the accumulator is zeroed. -/
abbrev condFirst (i : grid0.Coords) : Prop :=
  (Scalar.cmpi .ne (Scalar.extui (Scalar.cmpi .eq (BitVec.ofNat 32 (i 2).val) 0#32)) 0#32) = 1#1
theorem condFirst_iff : ∀ t : Fin cfg0.N, condFirst (grid0.coords t) ↔ t.val % 10 = 0 :=
  (by decide +kernel : ∀ t : Fin grid0.N, condFirst (grid0.coords t) ↔ t.val % 10 = 0)

/-- "k = 9": the output block is stored. -/
abbrev condLast (i : grid0.Coords) : Prop := k0_cond2 i = 1#1
theorem condLast_iff : ∀ t : Fin cfg0.N, condLast (grid0.coords t) ↔ t.val % 10 = 9 :=
  (by decide +kernel : ∀ t : Fin grid0.N, condLast (grid0.coords t) ↔ t.val % 10 = 9)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from k = 9 nothing is stored into the output block, and it is not written back. -/
theorem idle3 : ∀ t : Fin cfg0.N, ¬condLast (grid0.coords t) → cfg0.idle 3 (grid0.coords t) = true := by decide +kernel
theorem noFlush3 : ∀ t : Fin cfg0.N, ¬condLast (grid0.coords t) → (cfg0.win 3).flush t = false := by decide +kernel
/-- At k = 9 it is stored whole. -/
theorem live3 : ∀ t : Fin cfg0.N, condLast (grid0.coords t) → cfg0.idle 3 (grid0.coords t) = false := by decide +kernel

/-! ## The memrefs the body runs on -/

abbrev ms0 (t : Fin cfg0.N) : Memref sig .tc .vmem S1024x640 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1280x640 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1280 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1280 .f32 := win0_3.stage (cfg0.slots t 3)
abbrev hs3 (t : Fin cfg0.N) : (ms3 t).IsWhole := hstage0_3 ((cfg0.slots t 3).cast nbuf0_3)
/-- The accumulator: a whole scoped buffer of the kernel's own. -/
abbrev scM : Memref sig .tc .vmem S1024x1280 .f32 := Memref.whole cc0_scratch0
/-- Views through which what a buffer holds after the stores is stated. -/
abbrev VO3 : View sig .tc .vmem S1024x1280 .f32 := (Memref.whole cc0_stg3_0 : Memref sig .tc .vmem S1024x1280 .f32).view
abbrev VS : View sig .tc .vmem S1024x1280 .f32 := scM.view

/-- The core's scoped buffers that stage no window are the accumulator alone. -/
theorem scopedRest_eq_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Hand

end
-- ==== Proof.KbRunA.lean ====
/-
  The body at a point with k = 0 (and k ≠ 9): the accumulator is zeroed, then the point's product is added to it.
  Nothing is stored into the output block. The run is the symbolic executor's over the function's skeleton; the
  pieces the accumulator ends with are found by the run.
-/
import proofs.«137312_j20169166422772_1_alg».proof.Proof.KbCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- On whole memrefs — the three input blocks at `x0`, `x1`, `x2`, the output block at `xi3` (untouched), the
    accumulator at anything — the body runs, at a point where k = 0, to the inputs and the output block as they were
    and the accumulator with the pieces `LS` written. -/
noncomputable def kernelRunA (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : condFirst i) (hc1 : ¬condLast i)
    (x0 : Vec F S1024x640 .f32) (x1 : Vec F S1280x640 .f32) (x2 : Vec F S1024x1280 .f32) :
    Σ' (L3 : List (View.Piece (Elt F) S1024x1280 .f32)), { LS : List (View.Piece (Elt F) S1024x1280 .f32) //
      ∀ (xi3 : Vec F S1024x1280 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__interactions_kernel i arg3 harg3 arg4 harg4 arg5 harg5 arg6 harg6 arg7 harg7) K } := by
  refine ⟨[], ?_, fun xi3 E K => ?run⟩
  case run =>
    simp only [cc0__interactions_kernel_eq_skeleton]; unfold cc0__interactions_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.KbRunB.lean ====
/-
  The body at a point with 0 < k < 9: the point's product is added to the accumulator the point before left.
  Nothing is stored into the output block.
-/
import proofs.«137312_j20169166422772_1_alg».proof.Proof.KbRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- On whole memrefs — the input blocks at `x0`, `x1`, `x2`, the output block at `xi3` (untouched), the accumulator
    at `xs` — the body runs, at a point where k is neither 0 nor 9, to the inputs and the output block as they were and
    the accumulator with the pieces `LS` written. -/
noncomputable def kernelRunB (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬condFirst i) (hc1 : ¬condLast i)
    (x0 : Vec F S1024x640 .f32) (x1 : Vec F S1280x640 .f32) (x2 : Vec F S1024x1280 .f32) (xs : Vec F S1024x1280 .f32) :
    Σ' (L3 : List (View.Piece (Elt F) S1024x1280 .f32)), { LS : List (View.Piece (Elt F) S1024x1280 .f32) //
      ∀ (xi3 : Vec F S1024x1280 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__interactions_kernel i arg3 harg3 arg4 harg4 arg5 harg5 arg6 harg6 arg7 harg7) K } := by
  refine ⟨[], ?_, fun xi3 E K => ?run⟩
  case run =>
    simp only [cc0__interactions_kernel_eq_skeleton]; unfold cc0__interactions_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.KbRunC.lean ====
/-
  The body at a point with k = 9: the last product is added to the accumulator, and x_j * accumulator is stored
  into the output block, whole.
-/
import proofs.«137312_j20169166422772_1_alg».proof.Proof.KbRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- On whole memrefs — the input blocks at `x0`, `x1`, `x2`, the output block at anything, the accumulator at `xs` —
    the body runs, at a point where k = 9, to the inputs as they were, the output block with the pieces `L3` written
    and the accumulator with the pieces `LS` written. -/
noncomputable def kernelRunC (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬condFirst i) (hc1 : condLast i)
    (x0 : Vec F S1024x640 .f32) (x1 : Vec F S1280x640 .f32) (x2 : Vec F S1024x1280 .f32) (xs : Vec F S1024x1280 .f32) :
    Σ' (L3 : List (View.Piece (Elt F) S1024x1280 .f32)), { LS : List (View.Piece (Elt F) S1024x1280 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__interactions_kernel i arg3 harg3 arg4 harg4 arg5 harg5 arg6 harg6 arg7 harg7) K } := by
  refine ⟨?_, ?_, fun E K => ?run⟩
  case run =>
    simp only [cc0__interactions_kernel_eq_skeleton]; unfold cc0__interactions_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Hand

end
-- ==== Proof.KbData.lean ====
/-
  What the kernel leaves, point by point, and the pipeline's proof data.

  Within one (row tile, column tile) pair the ten points k = 0 .. 9 follow one another. The accumulator after point t
  is what the point's case leaves in it: at k = 0 the zero block plus the point's product, afterwards what the point
  before left plus the point's product. The output block is stored only at k = 9, as x_j times the accumulator then;
  at every other point the output window is idle and its staging buffer is handed back as it was found. The three
  input windows' staging buffers hold their blocks at every point, fetched there or not (the x_j window is fetched
  only at k = 0: its block index does not move with k).

  The padded x is read through two windows (its contraction slice and its column-tile slice): the proof data hold
  its array at the two halves of the full share, one per window.
-/
import proofs.«137312_j20169166422772_1_alg».proof.Proof.KbRunC
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each case leaves in the accumulator and in the output block -/

/-- The pieces the k = 0 case writes into the accumulator cover it. -/
theorem scoverA (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : condFirst i) (hc1 : ¬condLast i) (x0 : Vec F S1024x640 .f32) (x1 : Vec F S1280x640 .f32) (x2 : Vec F S1024x1280 .f32) (y : S1024x1280.Idx) :
    ∃ pc ∈ (kernelRunA c i arg3 harg3 arg4 harg4 arg5 harg5 arg6 harg6 arg7 harg7 hc0 hc1 x0 x1 x2).2.1, y ∈ pc.1.set :=
  View.cover_of_tiledL (kernelRunA c i arg3 harg3 arg4 harg4 arg5 harg5 arg6 harg6 arg7 harg7 hc0 hc1 x0 x1 x2).2.1 S1024x1280.size (by sl_kernel_rfl) y

/-- What the k = 0 case leaves in the accumulator. -/
def soutA (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : condFirst i) (hc1 : ¬condLast i) (x0 : Vec F S1024x640 .f32) (x1 : Vec F S1280x640 .f32) (x2 : Vec F S1024x1280 .f32) : Vec F S1024x1280 .f32 :=
  VS.read (Elt F) (VS.writes (Elt F) VS.junk (kernelRunA c i arg3 harg3 arg4 harg4 arg5 harg5 arg6 harg6 arg7 harg7 hc0 hc1 x0 x1 x2).2.1)

theorem scoverB (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬condFirst i) (hc1 : ¬condLast i) (x0 : Vec F S1024x640 .f32) (x1 : Vec F S1280x640 .f32) (x2 : Vec F S1024x1280 .f32) (xs : Vec F S1024x1280 .f32) (y : S1024x1280.Idx) :
    ∃ pc ∈ (kernelRunB c i arg3 harg3 arg4 harg4 arg5 harg5 arg6 harg6 arg7 harg7 hc0 hc1 x0 x1 x2 xs).2.1, y ∈ pc.1.set :=
  View.cover_of_tiledL (kernelRunB c i arg3 harg3 arg4 harg4 arg5 harg5 arg6 harg6 arg7 harg7 hc0 hc1 x0 x1 x2 xs).2.1 S1024x1280.size (by sl_kernel_rfl) y

/-- What a middle point leaves in the accumulator, over what the point before left (`xs`). -/
def soutB (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬condFirst i) (hc1 : ¬condLast i) (x0 : Vec F S1024x640 .f32) (x1 : Vec F S1280x640 .f32) (x2 : Vec F S1024x1280 .f32) (xs : Vec F S1024x1280 .f32) : Vec F S1024x1280 .f32 :=
  VS.read (Elt F) (VS.writes (Elt F) VS.junk (kernelRunB c i arg3 harg3 arg4 harg4 arg5 harg5 arg6 harg6 arg7 harg7 hc0 hc1 x0 x1 x2 xs).2.1)

theorem scoverC (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬condFirst i) (hc1 : condLast i) (x0 : Vec F S1024x640 .f32) (x1 : Vec F S1280x640 .f32) (x2 : Vec F S1024x1280 .f32) (xs : Vec F S1024x1280 .f32) (y : S1024x1280.Idx) :
    ∃ pc ∈ (kernelRunC c i arg3 harg3 arg4 harg4 arg5 harg5 arg6 harg6 arg7 harg7 hc0 hc1 x0 x1 x2 xs).2.1, y ∈ pc.1.set :=
  View.cover_of_tiledL (kernelRunC c i arg3 harg3 arg4 harg4 arg5 harg5 arg6 harg6 arg7 harg7 hc0 hc1 x0 x1 x2 xs).2.1 S1024x1280.size (by sl_kernel_rfl) y

/-- What the k = 9 point leaves in the accumulator. -/
def soutC (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬condFirst i) (hc1 : condLast i) (x0 : Vec F S1024x640 .f32) (x1 : Vec F S1280x640 .f32) (x2 : Vec F S1024x1280 .f32) (xs : Vec F S1024x1280 .f32) : Vec F S1024x1280 .f32 :=
  VS.read (Elt F) (VS.writes (Elt F) VS.junk (kernelRunC c i arg3 harg3 arg4 harg4 arg5 harg5 arg6 harg6 arg7 harg7 hc0 hc1 x0 x1 x2 xs).2.1)

/-- The one store of the k = 9 case into the output block covers it. -/
theorem coverC (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬condFirst i) (hc1 : condLast i) (x0 : Vec F S1024x640 .f32) (x1 : Vec F S1280x640 .f32) (x2 : Vec F S1024x1280 .f32) (xs : Vec F S1024x1280 .f32) (y : S1024x1280.Idx) :
    ∃ pc ∈ (kernelRunC c i arg3 harg3 arg4 harg4 arg5 harg5 arg6 harg6 arg7 harg7 hc0 hc1 x0 x1 x2 xs).1, y ∈ pc.1.set :=
  View.cover_of_tiledL (kernelRunC c i arg3 harg3 arg4 harg4 arg5 harg5 arg6 harg6 arg7 harg7 hc0 hc1 x0 x1 x2 xs).1 S1024x1280.size (by sl_kernel_rfl) y

/-- What the k = 9 point leaves in the output block. -/
def outC (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬condFirst i) (hc1 : condLast i) (x0 : Vec F S1024x640 .f32) (x1 : Vec F S1280x640 .f32) (x2 : Vec F S1024x1280 .f32) (xs : Vec F S1024x1280 .f32) : Vec F S1024x1280 .f32 :=
  VO3.read (Elt F) (VO3.writes (Elt F) VO3.junk (kernelRunC c i arg3 harg3 arg4 harg4 arg5 harg5 arg6 harg6 arg7 harg7 hc0 hc1 x0 x1 x2 xs).1)

/-- The output component at a point that stores nothing into the output block: never consulted (the window is idle
    there and not written back). -/
def idleOut : Vec F S1024x1280 .f32 := VO3.read (Elt F) VO3.junk

/-! ## The accumulation over the points -/

/-- What the output block's staging buffer and the accumulator hold after the body at position `n`: the case k selects,
    run at the point's memrefs and input blocks, a later point's accumulator over what the point before left. -/
def outsAt (c : Dev nD) : (n : ℕ) → n < cfg0.N → Vec F S1024x1280 .f32 × Vec F S1024x1280 .f32
  | 0, hn => (idleOut, soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((condFirst_iff ⟨0, hn⟩).mpr (Nat.zero_mod _)) (fun h => (fun h => by (try dsimp only at h); omega) ((condLast_iff ⟨0, hn⟩).mp h)) (iblk m c 0 ⟨0, hn⟩) (iblk m c 1 ⟨0, hn⟩) (iblk m c 2 ⟨0, hn⟩))
  | n + 1, hn =>
    if h0 : (n + 1) % 10 = 0 then
      if h1 : (n + 1) % 10 = 9 then
        False.elim (by omega)
      else
        (idleOut, soutA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((condFirst_iff ⟨n + 1, hn⟩).mpr h0) (fun h => h1 ((condLast_iff ⟨n + 1, hn⟩).mp h)) (iblk m c 0 ⟨n + 1, hn⟩) (iblk m c 1 ⟨n + 1, hn⟩) (iblk m c 2 ⟨n + 1, hn⟩))
    else
      if h1 : (n + 1) % 10 = 9 then
        (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (outsAt c n (Nat.lt_of_succ_lt hn)).2, soutC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (outsAt c n (Nat.lt_of_succ_lt hn)).2)
      else
        (idleOut, soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((condFirst_iff ⟨n + 1, hn⟩).mp h)) (fun h => h1 ((condLast_iff ⟨n + 1, hn⟩).mp h)) (iblk m c 0 ⟨n + 1, hn⟩) (iblk m c 1 ⟨n + 1, hn⟩) (iblk m c 2 ⟨n + 1, hn⟩) (outsAt c n (Nat.lt_of_succ_lt hn)).2)

/-- `outsAt` at a point with k = 0. -/
theorem outsAt_A (c : Dev nD) (t : Fin cfg0.N) (h0 : t.val % 10 = 0) (h1 : ¬t.val % 10 = 9) :
    outsAt m c t.val t.isLt = (idleOut, soutA c (grid0.coords t) (ms0 t) (hs0 t) (ms1 t) (hs1 t) (ms2 t) (hs2 t) (ms3 t) (hs3 t) scM (Memref.isWhole_whole _) ((condFirst_iff t).mpr h0) (fun h => h1 ((condLast_iff t).mp h)) (iblk m c 0 t) (iblk m c 1 t) (iblk m c 2 t)) := by
  obtain ⟨n, hn⟩ := t
  cases n with
  | zero => exact rfl
  | succ n => exact (dif_pos h0).trans ((dif_neg h1).trans rfl)

/-- `outsAt` at a point with 0 < k < 9: over what the point before left. -/
theorem outsAt_B (c : Dev nD) (t : Fin cfg0.N) (h0 : ¬t.val % 10 = 0) (h1 : ¬t.val % 10 = 9) :
    outsAt m c t.val t.isLt = (idleOut, soutB c (grid0.coords t) (ms0 t) (hs0 t) (ms1 t) (hs1 t) (ms2 t) (hs2 t) (ms3 t) (hs3 t) scM (Memref.isWhole_whole _) (fun h => h0 ((condFirst_iff t).mp h)) (fun h => h1 ((condLast_iff t).mp h)) (iblk m c 0 t) (iblk m c 1 t) (iblk m c 2 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a point with k = 9: over what the point before left. -/
theorem outsAt_C (c : Dev nD) (t : Fin cfg0.N) (h0 : ¬t.val % 10 = 0) (h1 : t.val % 10 = 9) :
    outsAt m c t.val t.isLt = (outC c (grid0.coords t) (ms0 t) (hs0 t) (ms1 t) (hs1 t) (ms2 t) (hs2 t) (ms3 t) (hs3 t) scM (Memref.isWhole_whole _) (fun h => h0 ((condFirst_iff t).mp h)) ((condLast_iff t).mpr h1) (iblk m c 0 t) (iblk m c 1 t) (iblk m c 2 t) (outsAt m c (t.val - 1) (Nat.lt_of_le_of_lt (Nat.sub_le _ _) t.isLt)).2, soutC c (grid0.coords t) (ms0 t) (hs0 t) (ms1 t) (hs1 t) (ms2 t) (hs2 t) (ms3 t) (hs3 t) scM (Memref.isWhole_whole _) (fun h => h0 ((condFirst_iff t).mp h)) ((condLast_iff t).mpr h1) (iblk m c 0 t) (iblk m c 1 t) (iblk m c 2 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator -/

/-- Before the first point the accumulator holds anything; before a later point, what the point before left. -/
def PhiS (c : Dev nD) : (n : ℕ) → n ≤ cfg0.N → sProp 𝕄
  | 0, _ => iprop(∃ d, owns (c : Thread nD τ) scM fullShare d)
  | n + 1, hn => owns (c : Thread nD τ) scM fullShare ((outsAt m c n hn).2)

theorem PhiS_zero (c : Dev nD) (n : ℕ) (h : n ≤ cfg0.N) (hz : n = 0) : PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare ((outsAt m c n hn).2) := rfl

theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-! ## The pipeline's proof data -/

/-- The proof data on core `c`: the arrays as the region finds them; after the body each input's buffer at its block
    and the output's at `outsAt`; the invariant the accumulator's; nothing owed; the padded x at one half of the full
    share for each of its two windows, the padded w_int at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := match w with
    | ⟨0, _⟩ => fullShare.left
    | ⟨1, _⟩ => fullShare
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]

set_option maxHeartbeats 4800000 in
/-- The body at any point: the inputs' memrefs hold their blocks; k says which case the point is in; the invariant
    hands the body the accumulator at what the point before left (at anything where k = 0) and takes it back at this
    point's contents; away from k = 9 the output block goes back as it came, at k = 9 it holds the case's store. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 100 := lt_of_lt_of_eq t.isLt (show cfg0.N = 100 from N_0)
  by_cases h0 : t.val % 10 = 0
  · have h1 : ¬t.val % 10 = 9 := by omega
    rw [Dat.leavesExact_idle (dats m 0 c) 3 t (idle3 t (fun h => h1 ((condLast_iff t).mp h))) (noFlush3 t (fun h => h1 ((condLast_iff t).mp h)))]
    rw [outsAt_A m c t h0 h1]
    unfold soutA; (try dsimp only)
    by_cases hz : t.val = 0
    · rw [PhiS_castSucc m c t, PhiS_zero m c _ _ hz]
      iintro ⟨HS, Ho, ⟨%d0, H0⟩, ⟨%d1, H1⟩, ⟨%d2, H2⟩, ⟨%d3, H3⟩⟩
      iapply ((kernelRunA c (grid0.coords t) _ _ _ _ _ _ _ _ _ _ ((condFirst_iff t).mpr h0) (fun h => h1 ((condLast_iff t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro; exact View.read_writes_of_cover _ _ _ _ _ (scoverA c _ _ _ _ _ _ _ _ _ _ _ _ _ _ _ _)
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨HS, Ho, ⟨%d0, H0⟩, ⟨%d1, H1⟩, ⟨%d2, H2⟩, ⟨%d3, H3⟩⟩
      iapply ((kernelRunA c (grid0.coords t) _ _ _ _ _ _ _ _ _ _ ((condFirst_iff t).mpr h0) (fun h => h1 ((condLast_iff t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS]
      · unfold owns; iexists _; isplitr
        swap; · iexact HS
        ipureintro; exact View.read_writes_of_cover _ _ _ _ _ (scoverA c _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 10 = 9
    · rw [show (dats m 0 c).leavesExact 3 t = owns (c : Thread nD τ) (ms3 t) fullShare ((dats m 0 c).after 3 t) from by
        unfold Dat.leavesExact; rw [live3 t ((condLast_iff t).mpr h1)], after3]
      rw [outsAt_C m c t h0 h1]
      unfold outC soutC; (try dsimp only)
      rw [PhiS_castSucc m c t, PhiS_pos m c _ _ hz]
      iintro ⟨HS, Ho, ⟨%d0, H0⟩, ⟨%d1, H1⟩, ⟨%d2, H2⟩, ⟨%d3, H3⟩⟩
      iapply ((kernelRunC c (grid0.coords t) _ _ _ _ _ _ _ _ _ _ (fun h => h0 ((condFirst_iff t).mp h)) ((condLast_iff t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS]
      · unfold owns; iexists _; isplitr
        swap; · iexact HS
        ipureintro; exact View.read_writes_of_cover _ _ _ _ _ (scoverC c _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _ _)
    · rw [Dat.leavesExact_idle (dats m 0 c) 3 t (idle3 t (fun h => h1 ((condLast_iff t).mp h))) (noFlush3 t (fun h => h1 ((condLast_iff t).mp h)))]
      rw [outsAt_B m c t h0 h1]
      unfold soutB; (try dsimp only)
      rw [PhiS_castSucc m c t, PhiS_pos m c _ _ hz]
      iintro ⟨HS, Ho, ⟨%d0, H0⟩, ⟨%d1, H1⟩, ⟨%d2, H2⟩, ⟨%d3, H3⟩⟩
      iapply ((kernelRunB c (grid0.coords t) _ _ _ _ _ _ _ _ _ _ (fun h => h0 ((condFirst_iff t).mp h)) (fun h => h1 ((condLast_iff t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro; exact View.read_writes_of_cover _ _ _ _ _ (scoverB c _ _ _ _ _ _ _ _ _ _ _ _ _ _ _ _ _)
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the accumulator holds anything. -/
theorem Phi_in (c : Dev nD) : (dats m 0 c).Φ 0 = iprop(∃ d, owns (c : Thread nD τ) scM fullShare d) := rfl

/-- After the last point it holds something. -/
theorem Phi_out (c : Dev nD) : (dats m 0 c).Φ (Fin.last cfg0.N) ⊢ iprop(∃ d, owns (c : Thread nD τ) scM fullShare d) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 100 := N_0; omega)]
  iintro HS; iexists _; iexact HS

end Cert.Kernel.Hand

end
-- ==== Proof.KbTail.lean ====
/-
  The host operations after the region, as one function of the five arguments they read and of the region's result:
  the linear head x * lin_w^T + lin_b, joined in front of the first 6156 columns of the region's 2048 x 6400 result,
  times fin_w^T, plus fin_b.
-/
import proofs.«137312_j20169166422772_1_alg».proof.Proof.Gen.Kernel

noncomputable section

namespace Cert.Kernel.Hand

open Cert.Kernel Cert.Kernel.Gen Idealize.ShloMosaic

variable {F : FTy → Type} [FloatOps F]

/-- What @main's last twelve operations compute. -/
def tailTerm (x0 : Vec F S2048x6156 .f32) (x1 : Vec F S3x6156 .f32) (x2 : Vec F S3 .f32) (x4 : Vec F S3x6159 .f32) (x5 : Vec F S3 .f32)
    (a : Vec F S2048x6400 .f32) : Vec F S2048x3 .f32 :=
  addf (Host.dotGeneral dot_S2048x6159_S6159x3_S2048x3_1_0_0_1_n_n none
      (concatenate S2048x6159 1 [⟨S2048x3, addf (Host.dotGeneral dot_S2048x6156_S6156x3_S2048x3_1_0_0_1_n_n none x0 (transpose S6156x3 [1, 0] x1 transposes_S3x6156_S6156x3_1_0)) (broadcastInDim S2048x3 ![0, 1] bcast_S1x3_S2048x3_0_1 (broadcastInDim S1x3 ![1] bcast_S3_S1x3_1 x2))⟩,
        ⟨S2048x6156, extractStridedSlice S2048x6156 ![0, 0] a slices_S2048x6400_S2048x6156_0_0⟩] concatenates_S2048x3_S2048x6156_S2048x6159_d1)
      (transpose S6159x3 [1, 0] x4 transposes_S3x6159_S6159x3_1_0))
    (broadcastInDim S2048x3 ![0, 1] bcast_S1x3_S2048x3_0_1 (broadcastInDim S1x3 ![1] bcast_S3_S1x3_1 x5))

end Cert.Kernel.Hand

end
-- ==== Proof.KbLaunch.lean ====
/-
  The launch: @main as four short host stretches (two zero constants and the two zero-paddings, the paddings outlined
  as functions), the kernel region, and the twelve host operations after it; and what memory holds at the end.

  Between segments the core holds its unscoped buffers whole at a valuation. At the region's entry the padded x, which
  two windows read, is split into the two halves of the full share, one per window, and the padded w_int and the
  result array go to their windows whole; everything else bypasses the region. At its exit the two halves are joined
  again (an input window's array ends as it began) and the result array is at what the write-backs left. The last
  stretch then runs from that valuation.
-/
import proofs.«137312_j20169166422772_1_alg».proof.Proof.KbData
import proofs.«137312_j20169166422772_1_alg».proof.Proof.KbTail
import Idealize.ShloMosaic.Lib.Pipeline.Regions
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The pipeline library's algebra is the whole user algebra: the kernel has no semaphore of its own. -/
abbrev EP : Emb (UR sig nD τ) (MT nD τ sig Unit (Elt F) ℕ (UR sig nD τ) ℕ) := emb₁
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers through every segment: the core owing nothing. -/
abbrev R (c : Dev nD) : sProp 𝕄 := iprop(∃ W, owes (c : Thread nD τ) (0 : CellTallies nD τ sig Unit) W)

/-! ## The valuations between the segments -/

abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev W4 (c : Dev nD) : Valuation τ sig (Elt F) := StableHlo.after hostOps0_3 (W3 m c)

/-- Running the four stretches one after the other is running their concatenation. -/
theorem W4_eq (c : Dev nD) : W4 m c = V0 m c := rfl

/-- At the region's exit: the entry valuation with the result array at what the write-backs left. -/
def Vx (c : Dev nD) : Valuation τ sig (Elt F) :=
  Function.update (V0 m c) (Proc.devRef .tc main_v2) ((dats m 0 c).arrAt 3 cfg0.N)

/-- At the end. -/
abbrev Vend (c : Dev nD) : Valuation τ sig (Elt F) := StableHlo.after hostOps1 (Vx m c)

/-! ## The host segments -/

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh0_2 : ∀ op ∈ (hostOps0_2 : List (HloOp τ sig (Elt F))), op.fresh = ∅ := by
  intro _ h; (repeat (cases h with | head => rfl | tail _ h => ?_)); exact nomatch h
theorem fresh0_3 : ∀ op ∈ (hostOps0_3 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

def seg0 : Pipeline.HostSeg (Name := ℕ) (U := UR sig nD τ) (pcfgs (F := F)) defs₀ Variants.none L lv :=
  Pipeline.HostSeg.ofOps _ _ _ _ _ (Pipeline.ucRefs τ sig) hostOps0 (fun op h => Pipeline.sub_ucRefs op ((List.forall_iff_forall_mem.mp hostOps0_sub) op h)) fresh0 (W0 m) R
def seg1 : Pipeline.HostSeg (Name := ℕ) (U := UR sig nD τ) (pcfgs (F := F)) defs₀ Variants.none L lv :=
  Pipeline.HostSeg.ofOps _ _ _ _ _ (Pipeline.ucRefs τ sig) hostOps0_1 (fun op h => Pipeline.sub_ucRefs op ((List.forall_iff_forall_mem.mp hostOps0_1_sub) op h)) fresh0_1 (W1 m) R
def seg2 : Pipeline.HostSeg (Name := ℕ) (U := UR sig nD τ) (pcfgs (F := F)) defs₀ Variants.none L lv :=
  Pipeline.HostSeg.ofOps _ _ _ _ _ (Pipeline.ucRefs τ sig) hostOps0_2 (fun op h => Pipeline.sub_ucRefs op ((List.forall_iff_forall_mem.mp hostOps0_2_sub) op h)) fresh0_2 (W2 m) R
def seg3 : Pipeline.HostSeg (Name := ℕ) (U := UR sig nD τ) (pcfgs (F := F)) defs₀ Variants.none L lv :=
  Pipeline.HostSeg.ofOps _ _ _ _ _ (Pipeline.ucRefs τ sig) hostOps0_3 (fun op h => Pipeline.sub_ucRefs op ((List.forall_iff_forall_mem.mp hostOps0_3_sub) op h)) fresh0_3 (W3 m) R
def segT : Pipeline.HostSeg (Name := ℕ) (U := UR sig nD τ) (pcfgs (F := F)) defs₀ Variants.none L lv :=
  Pipeline.HostSeg.ofOps _ _ _ _ _ (Pipeline.ucRefs τ sig) hostOps1 (fun op h => Pipeline.sub_ucRefs op ((List.forall_iff_forall_mem.mp hostOps1_sub) op h)) fresh1 (Vx m) R

/-! ## The region -/

/-- The buffers behind the windows' arrays. -/
def arrSet : Finset (DevRef τ sig) := {Proc.devRef .tc main_v0, Proc.devRef .tc main_v1, Proc.devRef .tc main_v2}

theorem arrSet_sub : (arrSet : Finset (DevRef τ sig)) ⊆ Pipeline.ucRefs τ sig := by decide

theorem v2_mem_arrSet : (Proc.devRef .tc main_v2 : DevRef τ sig) ∈ arrSet := by decide

/-- The three buffers, held whole at a valuation, one by one. -/
theorem held_arrSet (c : Thread nD τ) (W : Valuation τ sig (Elt F)) :
    (StableHlo.held c arrSet W : sProp 𝕄) = iprop(((c.1, Proc.devRef .tc main_v0) ↦{fullShare} W (Proc.devRef .tc main_v0)) ∗ ((c.1, Proc.devRef .tc main_v1) ↦{fullShare} W (Proc.devRef .tc main_v1)) ∗ ((c.1, Proc.devRef .tc main_v2) ↦{fullShare} W (Proc.devRef .tc main_v2))) := by
  unfold StableHlo.held arrSet
  rw [bigSep_insert (by decide), bigSep_insert (by decide), bigSep_singleton]
  rfl

/-- The pipeline's arrays, window by window: the padded x at the left half for its contraction window and at the
    right half for its column window, the padded w_int and the result whole. -/
theorem arrays4 (c : Dev nD) (Fw : (w : Fin cfg0.W) → Buf (Elt F) ((cfg0.win w).arr.view.loc (c.tc : Thread nD τ))) :
    ((dats m 0 c).arrays Fw : sProp 𝕄) = iprop((((c.tc : Thread nD τ).1, Proc.devRef .tc main_v0) ↦{fullShare.left} Fw 0) ∗ (((c.tc : Thread nD τ).1, Proc.devRef .tc main_v1) ↦{fullShare} Fw 1)
      ∗ (((c.tc : Thread nD τ).1, Proc.devRef .tc main_v0) ↦{fullShare.right} Fw 2) ∗ (((c.tc : Thread nD τ).1, Proc.devRef .tc main_v2) ↦{fullShare} Fw 3)) := by
  unfold Dat.arrays; rw [bigSep_W0]
  rw [(arr_whole0 0).set_eq_univ, (arr_whole0 1).set_eq_univ, (arr_whole0 3).set_eq_univ]
  rfl

/-- Off the result array the exit valuation is the entry one; at it, what the write-backs left. -/
theorem Vx_of_ne (c : Dev nD) (b : DevRef τ sig) (h : b ≠ Proc.devRef .tc main_v2) : Vx m c b = V0 m c b := by
  unfold Vx; exact Function.update_of_ne h _ _
theorem Vx_v2 (c : Dev nD) : Vx m c (Proc.devRef .tc main_v2) = (dats m 0 c).arrAt 3 cfg0.N := by
  unfold Vx; exact Function.update_self _ _ _

/-- An input window's array ends as it began. -/
theorem arrAt_in0 (c : Dev nD) : (dats m 0 c).arrAt 0 cfg0.N = V0 m c (Proc.devRef .tc main_v0) :=
  ((dats m 0 c).arrAt_in 0 rfl _).trans (A_eq m c 0)
theorem arrAt_in1 (c : Dev nD) : (dats m 0 c).arrAt 1 cfg0.N = V0 m c (Proc.devRef .tc main_v1) :=
  ((dats m 0 c).arrAt_in 1 rfl _).trans (A_eq m c 1)
theorem arrAt_in2 (c : Dev nD) : (dats m 0 c).arrAt 2 cfg0.N = V0 m c (Proc.devRef .tc main_v0) :=
  ((dats m 0 c).arrAt_in 2 rfl _).trans (A_eq m c 2)

set_option backward.isDefEq.respectTransparency.types false in
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (Vx m c) ∗ R c)
  X _ := iprop(emp)
  Y _ := iprop(emp)
  Z c := StableHlo.held (c : Thread nD τ) (Pipeline.ucRefs τ sig \ arrSet) (V0 m c)
  hentry c := by
    rw [W4_eq m c, Pipeline.ownSems0_none, StableHlo.held_sub_split (c : Thread nD τ) arrSet_sub (V0 m c), held_arrSet, arrays4]
    have hsplit := (pointsTo_share (ℓ := ((c.tc : Thread nD τ).1, Proc.devRef .tc main_v0)) (I := Finset.univ) (f := V0 m c (Proc.devRef .tc main_v0)) (PosShare.mem_left_op_right fullShare) : _ ⊣⊢ (_ : sProp 𝕄)).1
    iintro ⟨⟨⟨⟨H0, H1, H2⟩, Hrest⟩, HO⟩, -, -⟩
    ihave H0' := hsplit $$ H0
    icases H0' with ⟨H0l, H0r⟩
    imodintro
    isplitl [H0l H1 H0r H2]
    · isplitl [H0l]; · iexact H0l
      isplitl [H1]; · iexact H1
      isplitl [H0r]; · iexact H0r
      iexact H2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [Phi_in m c]
    iintro ⟨-, -, Hr⟩
    iapply (Entails.of_eq (scopedRest_eq_scratch (F := F) c))
    iexact Hr
  hout c := by
    refine (Phi_out m c).trans ?_
    rw [Pipeline.ownSems0_none]
    iintro H
    isplitr; · iempintro
    isplitr; · iempintro
    iapply (Entails.of_eq (scopedRest_eq_scratch (F := F) c).symm)
    iexact H
  hexit c := by
    rw [arrays4, StableHlo.held_sub_split (c : Thread nD τ) arrSet_sub (Vx m c), held_arrSet,
      Vx_of_ne m c _ (by decide), Vx_of_ne m c _ (by decide), Vx_v2,
      StableHlo.held_congr (c := (c : Thread nD τ)) (S := Pipeline.ucRefs τ sig \ arrSet) (V := Vx m c) (V' := V0 m c)
        (fun b hb => Vx_of_ne m c b (fun e => (Finset.mem_sdiff.mp hb).2 (e ▸ v2_mem_arrSet)))]
    have e0l := Entails.of_eq (congrArg (fun f => ((((c.tc : Thread nD τ).1, Proc.devRef .tc main_v0) ↦{fullShare.left} f : sProp 𝕄))) (arrAt_in0 m c))
    have e0r := Entails.of_eq (congrArg (fun f => ((((c.tc : Thread nD τ).1, Proc.devRef .tc main_v0) ↦{fullShare.right} f : sProp 𝕄))) (arrAt_in2 m c))
    have e1 := Entails.of_eq (congrArg (fun f => ((((c.tc : Thread nD τ).1, Proc.devRef .tc main_v1) ↦{fullShare} f : sProp 𝕄))) (arrAt_in1 m c))
    have hjoin := (pointsTo_share (ℓ := ((c.tc : Thread nD τ).1, Proc.devRef .tc main_v0)) (I := Finset.univ) (f := V0 m c (Proc.devRef .tc main_v0)) (PosShare.mem_left_op_right fullShare) : _ ⊣⊢ (_ : sProp 𝕄)).2
    iintro ⟨⟨H0l, H1, H0r, H2⟩, HO, -, HZ⟩
    ihave H0l' := e0l $$ H0l
    ihave H0r' := e0r $$ H0r
    ihave H1' := e1 $$ H1
    ihave H0 := hjoin $$ [H0l' H0r']
    · isplitl [H0l'] <;> iassumption
    imodintro
    isplitr [HO]
    · isplitr [HZ]
      · isplitl [H0]; · iexact H0
        isplitl [H1']; · iexact H1'
        iexact H2
      · iexact HZ
    · unfold Pipeline.Dat.owesAt Pipeline.owesWithin
      icases HO with ⟨%W, -, HO⟩; iexists W; iexact HO

abbrev segs : List (Pipeline.Seg (pcfgs (F := F)) adm (dats m) () defs₀ Variants.none L lv) :=
  [.host (seg0 m), .host (seg1 m), .host (seg2 m), .host (seg3 m), .region (reg0 m), .host (segT m)]

set_option backward.isDefEq.respectTransparency.types false in
/-- At the compiled mesh, for any float values, from any memory with zero counters: every weakly fair execution of
    @main on the TensorCores terminates, and every final state has every unscoped buffer at `Vend`. -/
theorem run_main : θ_run defs (onTc (τ := τ) (main (F := F))) ⟨m, fun _ => 0, ρ⟩
    (fun r => ∀ c : Dev nD, ∀ b ∈ Pipeline.ucRefs τ sig, r.2.mem ((c.tc : Thread nD τ).1, b) = Vend m c b) :=
  Pipeline.θ_run_regions_kit (pcfgs (F := F)) adm (dats m) () cellOf_inj EP defs₀ Variants.none L lv m ρ main (segs m)
    (fun c Q => by rw [main_chain, Pipeline.Seg.run_eq_chain]; rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (Vend m c))
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∀ b ∈ Pipeline.ucRefs τ sig, s.mem ((c.tc : Thread nD τ).1, b) = Vend m c b)
    (hfin := fun c s' => by
      unfold StableHlo.held
      iintro ⟨H, HSI⟩
      imodintro
      iapply (pointsTo_read_all (Pipeline.ucRefs τ sig) (fun b => ((c.tc : Thread nD τ).1, b)) (Vend m c) s')
      isplitl [H] <;> iassumption)
    (hQ := fun _ h => h)

end Cert.Kernel.Hand

end
-- ==== Proof.KbEnd.lean ====
/-
  What memory holds at the end: no host operation and no write-back touches an argument array, so each ends as it
  was launched; the result buffer holds the last twelve operations' value over the five arguments they read and the
  region's result array as the write-backs left it.
-/
import proofs.«137312_j20169166422772_1_alg».proof.Proof.KbLaunch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! ## The arguments reach the region, and the end, as launched -/

theorem V0_arg0 (c : Dev nD) : V0 m c (Proc.devRef .tc main_arg0) = m ((c.tc : Thread nD τ).loc main_arg0) := by
  dsimp only [V0]
  simp only [hostOps0, hostOps0_1, hostOps0_2, hostOps0_3, List.flatten_cons, List.flatten_nil, List.append_nil, List.cons_append, List.nil_append]
  after_results
theorem V0_arg1 (c : Dev nD) : V0 m c (Proc.devRef .tc main_arg1) = m ((c.tc : Thread nD τ).loc main_arg1) := by
  dsimp only [V0]
  simp only [hostOps0, hostOps0_1, hostOps0_2, hostOps0_3, List.flatten_cons, List.flatten_nil, List.append_nil, List.cons_append, List.nil_append]
  after_results
theorem V0_arg2 (c : Dev nD) : V0 m c (Proc.devRef .tc main_arg2) = m ((c.tc : Thread nD τ).loc main_arg2) := by
  dsimp only [V0]
  simp only [hostOps0, hostOps0_1, hostOps0_2, hostOps0_3, List.flatten_cons, List.flatten_nil, List.append_nil, List.cons_append, List.nil_append]
  after_results
theorem V0_arg3 (c : Dev nD) : V0 m c (Proc.devRef .tc main_arg3) = m ((c.tc : Thread nD τ).loc main_arg3) := by
  dsimp only [V0]
  simp only [hostOps0, hostOps0_1, hostOps0_2, hostOps0_3, List.flatten_cons, List.flatten_nil, List.append_nil, List.cons_append, List.nil_append]
  after_results
theorem V0_arg4 (c : Dev nD) : V0 m c (Proc.devRef .tc main_arg4) = m ((c.tc : Thread nD τ).loc main_arg4) := by
  dsimp only [V0]
  simp only [hostOps0, hostOps0_1, hostOps0_2, hostOps0_3, List.flatten_cons, List.flatten_nil, List.append_nil, List.cons_append, List.nil_append]
  after_results
theorem V0_arg5 (c : Dev nD) : V0 m c (Proc.devRef .tc main_arg5) = m ((c.tc : Thread nD τ).loc main_arg5) := by
  dsimp only [V0]
  simp only [hostOps0, hostOps0_1, hostOps0_2, hostOps0_3, List.flatten_cons, List.flatten_nil, List.append_nil, List.cons_append, List.nil_append]
  after_results

theorem Vend_arg0 (c : Dev nD) : Vend m c (Proc.devRef .tc main_arg0) = m ((c.tc : Thread nD τ).loc main_arg0) := by
  have h : Vend m c (Proc.devRef .tc main_arg0) = Vx m c (Proc.devRef .tc main_arg0) := by
    show StableHlo.after hostOps1 (Vx m c) (Proc.devRef .tc main_arg0) = _
    after_results
  rw [h, Vx_of_ne m c _ (by decide), V0_arg0]
theorem Vend_arg1 (c : Dev nD) : Vend m c (Proc.devRef .tc main_arg1) = m ((c.tc : Thread nD τ).loc main_arg1) := by
  have h : Vend m c (Proc.devRef .tc main_arg1) = Vx m c (Proc.devRef .tc main_arg1) := by
    show StableHlo.after hostOps1 (Vx m c) (Proc.devRef .tc main_arg1) = _
    after_results
  rw [h, Vx_of_ne m c _ (by decide), V0_arg1]
theorem Vend_arg2 (c : Dev nD) : Vend m c (Proc.devRef .tc main_arg2) = m ((c.tc : Thread nD τ).loc main_arg2) := by
  have h : Vend m c (Proc.devRef .tc main_arg2) = Vx m c (Proc.devRef .tc main_arg2) := by
    show StableHlo.after hostOps1 (Vx m c) (Proc.devRef .tc main_arg2) = _
    after_results
  rw [h, Vx_of_ne m c _ (by decide), V0_arg2]
theorem Vend_arg3 (c : Dev nD) : Vend m c (Proc.devRef .tc main_arg3) = m ((c.tc : Thread nD τ).loc main_arg3) := by
  have h : Vend m c (Proc.devRef .tc main_arg3) = Vx m c (Proc.devRef .tc main_arg3) := by
    show StableHlo.after hostOps1 (Vx m c) (Proc.devRef .tc main_arg3) = _
    after_results
  rw [h, Vx_of_ne m c _ (by decide), V0_arg3]
theorem Vend_arg4 (c : Dev nD) : Vend m c (Proc.devRef .tc main_arg4) = m ((c.tc : Thread nD τ).loc main_arg4) := by
  have h : Vend m c (Proc.devRef .tc main_arg4) = Vx m c (Proc.devRef .tc main_arg4) := by
    show StableHlo.after hostOps1 (Vx m c) (Proc.devRef .tc main_arg4) = _
    after_results
  rw [h, Vx_of_ne m c _ (by decide), V0_arg4]
theorem Vend_arg5 (c : Dev nD) : Vend m c (Proc.devRef .tc main_arg5) = m ((c.tc : Thread nD τ).loc main_arg5) := by
  have h : Vend m c (Proc.devRef .tc main_arg5) = Vx m c (Proc.devRef .tc main_arg5) := by
    show StableHlo.after hostOps1 (Vx m c) (Proc.devRef .tc main_arg5) = _
    after_results
  rw [h, Vx_of_ne m c _ (by decide), V0_arg5]

/-- The result buffer at the end. -/
theorem Vend_v14 (c : Dev nD) :
    Vend m c (Proc.devRef .tc main_v14) = tailTerm (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg5)) ((dats m 0 c).arrAt 3 cfg0.N) := by
  show StableHlo.after hostOps1 (Vx m c) (Proc.devRef .tc main_v14) = _
  after_results
  rw [Vx_of_ne m c (Proc.devRef .tc main_arg0) (by decide), Vx_of_ne m c (Proc.devRef .tc main_arg1) (by decide), Vx_of_ne m c (Proc.devRef .tc main_arg2) (by decide),
    Vx_of_ne m c (Proc.devRef .tc main_arg4) (by decide), Vx_of_ne m c (Proc.devRef .tc main_arg5) (by decide), Vx_v2,
    V0_arg0, V0_arg1, V0_arg2, V0_arg4, V0_arg5]
  rfl

theorem mem_arg0 : (Proc.devRef .tc main_arg0 : DevRef τ sig) ∈ Pipeline.ucRefs τ sig := by decide
theorem mem_arg1 : (Proc.devRef .tc main_arg1 : DevRef τ sig) ∈ Pipeline.ucRefs τ sig := by decide
theorem mem_arg2 : (Proc.devRef .tc main_arg2 : DevRef τ sig) ∈ Pipeline.ucRefs τ sig := by decide
theorem mem_arg3 : (Proc.devRef .tc main_arg3 : DevRef τ sig) ∈ Pipeline.ucRefs τ sig := by decide
theorem mem_arg4 : (Proc.devRef .tc main_arg4 : DevRef τ sig) ∈ Pipeline.ucRefs τ sig := by decide
theorem mem_arg5 : (Proc.devRef .tc main_arg5 : DevRef τ sig) ∈ Pipeline.ucRefs τ sig := by decide
theorem mem_v14 : (Proc.devRef .tc main_v14 : DevRef τ sig) ∈ Pipeline.ucRefs τ sig := by decide

/-! ## The run's result and the frame -/

/-- Every weakly fair execution of @main terminates with the result buffer at the tail's value over the region's final
    array, and the six arguments unchanged. -/
theorem run_result : θ_run defs (onTc (τ := τ) (main (F := F))) ⟨m, fun _ => 0, ρ⟩ (fun r => ∀ c : Dev nD,
      r.2.mem ((c.tc : Thread nD τ).loc main_v14) = tailTerm (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ mem_v14).trans (Vend_v14 m c),
      (h c _ mem_arg0).trans (Vend_arg0 m c),
      (h c _ mem_arg1).trans (Vend_arg1 m c),
      (h c _ mem_arg2).trans (Vend_arg2 m c),
      (h c _ mem_arg3).trans (Vend_arg3 m c),
      (h c _ mem_arg4).trans (Vend_arg4 m c),
      (h c _ mem_arg5).trans (Vend_arg5 m c)⟩) (run_main m ρ)

/-- The frame: it runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)) :=
  (θ_run defs _ _).mono (fun r h c => (h c).2) (run_result m ρ)

end Cert.Kernel.Hand

end
-- ==== Proof.KiCases.lean ====
/-
  The interaction kernel on its grid of 2 x 5 x 10 points (row tile b, column tile j, contraction tile k; k runs
  fastest): which of its two conditionals a point takes, where the output window is idle, the staging memrefs the
  pipeline hands the body at a point, and the arrays as the region finds them.

  The body zeroes its accumulator where k = 0, adds one 1024x640 by 640x1280 product to it at every point, and
  stores x_j * accumulator into the output block where k = 9. Since k = point mod 10, the first conditional is taken
  exactly at the points = 0 (mod 10) and the second exactly at the points = 9 (mod 10); the output block is written
  back exactly at the latter, and is idle everywhere else.
-/
import proofs.«137312_j20169166422772_1_alg».proof.Proof.Gen.KernelIdeal.Launch
import proofs.«137312_j20169166422772_1_alg».proof.Proof.Gen.KernelIdeal.Skeleton
import proofs.«137312_j20169166422772_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays at the region's entry -/

/-- Core `c`'s buffers when the region is entered: the launch contents after the two zero constants and the two
    zero-paddings (x to 2048x6400, w_int to 6400x6400) that precede it. -/
abbrev V0 (c : Dev nD) : Valuation τ sig (Elt F) :=
  StableHlo.after (List.flatten [hostOps0, hostOps0_1, hostOps0_2, hostOps0_3]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditionals, over the grid -/

/-- "k = 0": the accumulator is zeroed. -/
abbrev condFirst (i : grid0.Coords) : Prop :=
  (Scalar.cmpi .ne (Scalar.extui (Scalar.cmpi .eq (BitVec.ofNat 32 (i 2).val) 0#32)) 0#32) = 1#1
theorem condFirst_iff : ∀ t : Fin cfg0.N, condFirst (grid0.coords t) ↔ t.val % 10 = 0 :=
  (by decide +kernel : ∀ t : Fin grid0.N, condFirst (grid0.coords t) ↔ t.val % 10 = 0)

/-- "k = 9": the output block is stored. -/
abbrev condLast (i : grid0.Coords) : Prop := k0_cond2 i = 1#1
theorem condLast_iff : ∀ t : Fin cfg0.N, condLast (grid0.coords t) ↔ t.val % 10 = 9 :=
  (by decide +kernel : ∀ t : Fin grid0.N, condLast (grid0.coords t) ↔ t.val % 10 = 9)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from k = 9 nothing is stored into the output block, and it is not written back. -/
theorem idle3 : ∀ t : Fin cfg0.N, ¬condLast (grid0.coords t) → cfg0.idle 3 (grid0.coords t) = true := by decide +kernel
theorem noFlush3 : ∀ t : Fin cfg0.N, ¬condLast (grid0.coords t) → (cfg0.win 3).flush t = false := by decide +kernel
/-- At k = 9 it is stored whole. -/
theorem live3 : ∀ t : Fin cfg0.N, condLast (grid0.coords t) → cfg0.idle 3 (grid0.coords t) = false := by decide +kernel

/-! ## The memrefs the body runs on -/

abbrev ms0 (t : Fin cfg0.N) : Memref sig .tc .vmem S1024x640 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1280x640 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1280 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1280 .f32 := win0_3.stage (cfg0.slots t 3)
abbrev hs3 (t : Fin cfg0.N) : (ms3 t).IsWhole := hstage0_3 ((cfg0.slots t 3).cast nbuf0_3)
/-- The accumulator: a whole scoped buffer of the kernel's own. -/
abbrev scM : Memref sig .tc .vmem S1024x1280 .f32 := Memref.whole cc0_scratch0
/-- Views through which what a buffer holds after the stores is stated. -/
abbrev VO3 : View sig .tc .vmem S1024x1280 .f32 := (Memref.whole cc0_stg3_0 : Memref sig .tc .vmem S1024x1280 .f32).view
abbrev VS : View sig .tc .vmem S1024x1280 .f32 := scM.view

/-- The core's scoped buffers that stage no window are the accumulator alone. -/
theorem scopedRest_eq_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Hand

end
-- ==== Proof.KiRunA.lean ====
/-
  The body at a point with k = 0 (and k ≠ 9): the accumulator is zeroed, then the point's product is added to it.
  Nothing is stored into the output block. The run is the symbolic executor's over the function's skeleton; the
  pieces the accumulator ends with are found by the run.
-/
import proofs.«137312_j20169166422772_1_alg».proof.Proof.KiCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- On whole memrefs — the three input blocks at `x0`, `x1`, `x2`, the output block at `xi3` (untouched), the
    accumulator at anything — the body runs, at a point where k = 0, to the inputs and the output block as they were
    and the accumulator with the pieces `LS` written. -/
noncomputable def kernelRunA (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : condFirst i) (hc1 : ¬condLast i)
    (x0 : Vec F S1024x640 .f32) (x1 : Vec F S1280x640 .f32) (x2 : Vec F S1024x1280 .f32) :
    Σ' (L3 : List (View.Piece (Elt F) S1024x1280 .f32)), { LS : List (View.Piece (Elt F) S1024x1280 .f32) //
      ∀ (xi3 : Vec F S1024x1280 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__interactions_kernel i arg3 harg3 arg4 harg4 arg5 harg5 arg6 harg6 arg7 harg7) K } := by
  refine ⟨[], ?_, fun xi3 E K => ?run⟩
  case run =>
    simp only [cc0__interactions_kernel_eq_skeleton]; unfold cc0__interactions_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.KiRunB.lean ====
/-
  The body at a point with 0 < k < 9: the point's product is added to the accumulator the point before left.
  Nothing is stored into the output block.
-/
import proofs.«137312_j20169166422772_1_alg».proof.Proof.KiRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- On whole memrefs — the input blocks at `x0`, `x1`, `x2`, the output block at `xi3` (untouched), the accumulator
    at `xs` — the body runs, at a point where k is neither 0 nor 9, to the inputs and the output block as they were and
    the accumulator with the pieces `LS` written. -/
noncomputable def kernelRunB (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬condFirst i) (hc1 : ¬condLast i)
    (x0 : Vec F S1024x640 .f32) (x1 : Vec F S1280x640 .f32) (x2 : Vec F S1024x1280 .f32) (xs : Vec F S1024x1280 .f32) :
    Σ' (L3 : List (View.Piece (Elt F) S1024x1280 .f32)), { LS : List (View.Piece (Elt F) S1024x1280 .f32) //
      ∀ (xi3 : Vec F S1024x1280 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__interactions_kernel i arg3 harg3 arg4 harg4 arg5 harg5 arg6 harg6 arg7 harg7) K } := by
  refine ⟨[], ?_, fun xi3 E K => ?run⟩
  case run =>
    simp only [cc0__interactions_kernel_eq_skeleton]; unfold cc0__interactions_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.KiRunC.lean ====
/-
  The body at a point with k = 9: the last product is added to the accumulator, and x_j * accumulator is stored
  into the output block, whole.
-/
import proofs.«137312_j20169166422772_1_alg».proof.Proof.KiRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- On whole memrefs — the input blocks at `x0`, `x1`, `x2`, the output block at anything, the accumulator at `xs` —
    the body runs, at a point where k = 9, to the inputs as they were, the output block with the pieces `L3` written
    and the accumulator with the pieces `LS` written. -/
noncomputable def kernelRunC (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬condFirst i) (hc1 : condLast i)
    (x0 : Vec F S1024x640 .f32) (x1 : Vec F S1280x640 .f32) (x2 : Vec F S1024x1280 .f32) (xs : Vec F S1024x1280 .f32) :
    Σ' (L3 : List (View.Piece (Elt F) S1024x1280 .f32)), { LS : List (View.Piece (Elt F) S1024x1280 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__interactions_kernel i arg3 harg3 arg4 harg4 arg5 harg5 arg6 harg6 arg7 harg7) K } := by
  refine ⟨?_, ?_, fun E K => ?run⟩
  case run =>
    simp only [cc0__interactions_kernel_eq_skeleton]; unfold cc0__interactions_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Hand

end
-- ==== Proof.KiData.lean ====
/-
  What the kernel leaves, point by point, and the pipeline's proof data.

  Within one (row tile, column tile) pair the ten points k = 0 .. 9 follow one another. The accumulator after point t
  is what the point's case leaves in it: at k = 0 the zero block plus the point's product, afterwards what the point
  before left plus the point's product. The output block is stored only at k = 9, as x_j times the accumulator then;
  at every other point the output window is idle and its staging buffer is handed back as it was found. The three
  input windows' staging buffers hold their blocks at every point, fetched there or not (the x_j window is fetched
  only at k = 0: its block index does not move with k).

  The padded x is read through two windows (its contraction slice and its column-tile slice): the proof data hold
  its array at the two halves of the full share, one per window.
-/
import proofs.«137312_j20169166422772_1_alg».proof.Proof.KiRunC
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each case leaves in the accumulator and in the output block -/

/-- The pieces the k = 0 case writes into the accumulator cover it. -/
theorem scoverA (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : condFirst i) (hc1 : ¬condLast i) (x0 : Vec F S1024x640 .f32) (x1 : Vec F S1280x640 .f32) (x2 : Vec F S1024x1280 .f32) (y : S1024x1280.Idx) :
    ∃ pc ∈ (kernelRunA c i arg3 harg3 arg4 harg4 arg5 harg5 arg6 harg6 arg7 harg7 hc0 hc1 x0 x1 x2).2.1, y ∈ pc.1.set :=
  View.cover_of_tiledL (kernelRunA c i arg3 harg3 arg4 harg4 arg5 harg5 arg6 harg6 arg7 harg7 hc0 hc1 x0 x1 x2).2.1 S1024x1280.size (by sl_kernel_rfl) y

/-- What the k = 0 case leaves in the accumulator. -/
def soutA (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : condFirst i) (hc1 : ¬condLast i) (x0 : Vec F S1024x640 .f32) (x1 : Vec F S1280x640 .f32) (x2 : Vec F S1024x1280 .f32) : Vec F S1024x1280 .f32 :=
  VS.read (Elt F) (VS.writes (Elt F) VS.junk (kernelRunA c i arg3 harg3 arg4 harg4 arg5 harg5 arg6 harg6 arg7 harg7 hc0 hc1 x0 x1 x2).2.1)

theorem scoverB (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬condFirst i) (hc1 : ¬condLast i) (x0 : Vec F S1024x640 .f32) (x1 : Vec F S1280x640 .f32) (x2 : Vec F S1024x1280 .f32) (xs : Vec F S1024x1280 .f32) (y : S1024x1280.Idx) :
    ∃ pc ∈ (kernelRunB c i arg3 harg3 arg4 harg4 arg5 harg5 arg6 harg6 arg7 harg7 hc0 hc1 x0 x1 x2 xs).2.1, y ∈ pc.1.set :=
  View.cover_of_tiledL (kernelRunB c i arg3 harg3 arg4 harg4 arg5 harg5 arg6 harg6 arg7 harg7 hc0 hc1 x0 x1 x2 xs).2.1 S1024x1280.size (by sl_kernel_rfl) y

/-- What a middle point leaves in the accumulator, over what the point before left (`xs`). -/
def soutB (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬condFirst i) (hc1 : ¬condLast i) (x0 : Vec F S1024x640 .f32) (x1 : Vec F S1280x640 .f32) (x2 : Vec F S1024x1280 .f32) (xs : Vec F S1024x1280 .f32) : Vec F S1024x1280 .f32 :=
  VS.read (Elt F) (VS.writes (Elt F) VS.junk (kernelRunB c i arg3 harg3 arg4 harg4 arg5 harg5 arg6 harg6 arg7 harg7 hc0 hc1 x0 x1 x2 xs).2.1)

theorem scoverC (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬condFirst i) (hc1 : condLast i) (x0 : Vec F S1024x640 .f32) (x1 : Vec F S1280x640 .f32) (x2 : Vec F S1024x1280 .f32) (xs : Vec F S1024x1280 .f32) (y : S1024x1280.Idx) :
    ∃ pc ∈ (kernelRunC c i arg3 harg3 arg4 harg4 arg5 harg5 arg6 harg6 arg7 harg7 hc0 hc1 x0 x1 x2 xs).2.1, y ∈ pc.1.set :=
  View.cover_of_tiledL (kernelRunC c i arg3 harg3 arg4 harg4 arg5 harg5 arg6 harg6 arg7 harg7 hc0 hc1 x0 x1 x2 xs).2.1 S1024x1280.size (by sl_kernel_rfl) y

/-- What the k = 9 point leaves in the accumulator. -/
def soutC (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬condFirst i) (hc1 : condLast i) (x0 : Vec F S1024x640 .f32) (x1 : Vec F S1280x640 .f32) (x2 : Vec F S1024x1280 .f32) (xs : Vec F S1024x1280 .f32) : Vec F S1024x1280 .f32 :=
  VS.read (Elt F) (VS.writes (Elt F) VS.junk (kernelRunC c i arg3 harg3 arg4 harg4 arg5 harg5 arg6 harg6 arg7 harg7 hc0 hc1 x0 x1 x2 xs).2.1)

/-- The one store of the k = 9 case into the output block covers it. -/
theorem coverC (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬condFirst i) (hc1 : condLast i) (x0 : Vec F S1024x640 .f32) (x1 : Vec F S1280x640 .f32) (x2 : Vec F S1024x1280 .f32) (xs : Vec F S1024x1280 .f32) (y : S1024x1280.Idx) :
    ∃ pc ∈ (kernelRunC c i arg3 harg3 arg4 harg4 arg5 harg5 arg6 harg6 arg7 harg7 hc0 hc1 x0 x1 x2 xs).1, y ∈ pc.1.set :=
  View.cover_of_tiledL (kernelRunC c i arg3 harg3 arg4 harg4 arg5 harg5 arg6 harg6 arg7 harg7 hc0 hc1 x0 x1 x2 xs).1 S1024x1280.size (by sl_kernel_rfl) y

/-- What the k = 9 point leaves in the output block. -/
def outC (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬condFirst i) (hc1 : condLast i) (x0 : Vec F S1024x640 .f32) (x1 : Vec F S1280x640 .f32) (x2 : Vec F S1024x1280 .f32) (xs : Vec F S1024x1280 .f32) : Vec F S1024x1280 .f32 :=
  VO3.read (Elt F) (VO3.writes (Elt F) VO3.junk (kernelRunC c i arg3 harg3 arg4 harg4 arg5 harg5 arg6 harg6 arg7 harg7 hc0 hc1 x0 x1 x2 xs).1)

/-- The output component at a point that stores nothing into the output block: never consulted (the window is idle
    there and not written back). -/
def idleOut : Vec F S1024x1280 .f32 := VO3.read (Elt F) VO3.junk

/-! ## The accumulation over the points -/

/-- What the output block's staging buffer and the accumulator hold after the body at position `n`: the case k selects,
    run at the point's memrefs and input blocks, a later point's accumulator over what the point before left. -/
def outsAt (c : Dev nD) : (n : ℕ) → n < cfg0.N → Vec F S1024x1280 .f32 × Vec F S1024x1280 .f32
  | 0, hn => (idleOut, soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((condFirst_iff ⟨0, hn⟩).mpr (Nat.zero_mod _)) (fun h => (fun h => by (try dsimp only at h); omega) ((condLast_iff ⟨0, hn⟩).mp h)) (iblk m c 0 ⟨0, hn⟩) (iblk m c 1 ⟨0, hn⟩) (iblk m c 2 ⟨0, hn⟩))
  | n + 1, hn =>
    if h0 : (n + 1) % 10 = 0 then
      if h1 : (n + 1) % 10 = 9 then
        False.elim (by omega)
      else
        (idleOut, soutA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((condFirst_iff ⟨n + 1, hn⟩).mpr h0) (fun h => h1 ((condLast_iff ⟨n + 1, hn⟩).mp h)) (iblk m c 0 ⟨n + 1, hn⟩) (iblk m c 1 ⟨n + 1, hn⟩) (iblk m c 2 ⟨n + 1, hn⟩))
    else
      if h1 : (n + 1) % 10 = 9 then
        (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (outsAt c n (Nat.lt_of_succ_lt hn)).2, soutC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (outsAt c n (Nat.lt_of_succ_lt hn)).2)
      else
        (idleOut, soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((condFirst_iff ⟨n + 1, hn⟩).mp h)) (fun h => h1 ((condLast_iff ⟨n + 1, hn⟩).mp h)) (iblk m c 0 ⟨n + 1, hn⟩) (iblk m c 1 ⟨n + 1, hn⟩) (iblk m c 2 ⟨n + 1, hn⟩) (outsAt c n (Nat.lt_of_succ_lt hn)).2)

/-- `outsAt` at a point with k = 0. -/
theorem outsAt_A (c : Dev nD) (t : Fin cfg0.N) (h0 : t.val % 10 = 0) (h1 : ¬t.val % 10 = 9) :
    outsAt m c t.val t.isLt = (idleOut, soutA c (grid0.coords t) (ms0 t) (hs0 t) (ms1 t) (hs1 t) (ms2 t) (hs2 t) (ms3 t) (hs3 t) scM (Memref.isWhole_whole _) ((condFirst_iff t).mpr h0) (fun h => h1 ((condLast_iff t).mp h)) (iblk m c 0 t) (iblk m c 1 t) (iblk m c 2 t)) := by
  obtain ⟨n, hn⟩ := t
  cases n with
  | zero => exact rfl
  | succ n => exact (dif_pos h0).trans ((dif_neg h1).trans rfl)

/-- `outsAt` at a point with 0 < k < 9: over what the point before left. -/
theorem outsAt_B (c : Dev nD) (t : Fin cfg0.N) (h0 : ¬t.val % 10 = 0) (h1 : ¬t.val % 10 = 9) :
    outsAt m c t.val t.isLt = (idleOut, soutB c (grid0.coords t) (ms0 t) (hs0 t) (ms1 t) (hs1 t) (ms2 t) (hs2 t) (ms3 t) (hs3 t) scM (Memref.isWhole_whole _) (fun h => h0 ((condFirst_iff t).mp h)) (fun h => h1 ((condLast_iff t).mp h)) (iblk m c 0 t) (iblk m c 1 t) (iblk m c 2 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a point with k = 9: over what the point before left. -/
theorem outsAt_C (c : Dev nD) (t : Fin cfg0.N) (h0 : ¬t.val % 10 = 0) (h1 : t.val % 10 = 9) :
    outsAt m c t.val t.isLt = (outC c (grid0.coords t) (ms0 t) (hs0 t) (ms1 t) (hs1 t) (ms2 t) (hs2 t) (ms3 t) (hs3 t) scM (Memref.isWhole_whole _) (fun h => h0 ((condFirst_iff t).mp h)) ((condLast_iff t).mpr h1) (iblk m c 0 t) (iblk m c 1 t) (iblk m c 2 t) (outsAt m c (t.val - 1) (Nat.lt_of_le_of_lt (Nat.sub_le _ _) t.isLt)).2, soutC c (grid0.coords t) (ms0 t) (hs0 t) (ms1 t) (hs1 t) (ms2 t) (hs2 t) (ms3 t) (hs3 t) scM (Memref.isWhole_whole _) (fun h => h0 ((condFirst_iff t).mp h)) ((condLast_iff t).mpr h1) (iblk m c 0 t) (iblk m c 1 t) (iblk m c 2 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator -/

/-- Before the first point the accumulator holds anything; before a later point, what the point before left. -/
def PhiS (c : Dev nD) : (n : ℕ) → n ≤ cfg0.N → sProp 𝕄
  | 0, _ => iprop(∃ d, owns (c : Thread nD τ) scM fullShare d)
  | n + 1, hn => owns (c : Thread nD τ) scM fullShare ((outsAt m c n hn).2)

theorem PhiS_zero (c : Dev nD) (n : ℕ) (h : n ≤ cfg0.N) (hz : n = 0) : PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare ((outsAt m c n hn).2) := rfl

theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-! ## The pipeline's proof data -/

/-- The proof data on core `c`: the arrays as the region finds them; after the body each input's buffer at its block
    and the output's at `outsAt`; the invariant the accumulator's; nothing owed; the padded x at one half of the full
    share for each of its two windows, the padded w_int at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := match w with
    | ⟨0, _⟩ => fullShare.left
    | ⟨1, _⟩ => fullShare
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]

set_option maxHeartbeats 4800000 in
/-- The body at any point: the inputs' memrefs hold their blocks; k says which case the point is in; the invariant
    hands the body the accumulator at what the point before left (at anything where k = 0) and takes it back at this
    point's contents; away from k = 9 the output block goes back as it came, at k = 9 it holds the case's store. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 100 := lt_of_lt_of_eq t.isLt (show cfg0.N = 100 from N_0)
  by_cases h0 : t.val % 10 = 0
  · have h1 : ¬t.val % 10 = 9 := by omega
    rw [Dat.leavesExact_idle (dats m 0 c) 3 t (idle3 t (fun h => h1 ((condLast_iff t).mp h))) (noFlush3 t (fun h => h1 ((condLast_iff t).mp h)))]
    rw [outsAt_A m c t h0 h1]
    unfold soutA; (try dsimp only)
    by_cases hz : t.val = 0
    · rw [PhiS_castSucc m c t, PhiS_zero m c _ _ hz]
      iintro ⟨HS, Ho, ⟨%d0, H0⟩, ⟨%d1, H1⟩, ⟨%d2, H2⟩, ⟨%d3, H3⟩⟩
      iapply ((kernelRunA c (grid0.coords t) _ _ _ _ _ _ _ _ _ _ ((condFirst_iff t).mpr h0) (fun h => h1 ((condLast_iff t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro; exact View.read_writes_of_cover _ _ _ _ _ (scoverA c _ _ _ _ _ _ _ _ _ _ _ _ _ _ _ _)
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨HS, Ho, ⟨%d0, H0⟩, ⟨%d1, H1⟩, ⟨%d2, H2⟩, ⟨%d3, H3⟩⟩
      iapply ((kernelRunA c (grid0.coords t) _ _ _ _ _ _ _ _ _ _ ((condFirst_iff t).mpr h0) (fun h => h1 ((condLast_iff t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS]
      · unfold owns; iexists _; isplitr
        swap; · iexact HS
        ipureintro; exact View.read_writes_of_cover _ _ _ _ _ (scoverA c _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 10 = 9
    · rw [show (dats m 0 c).leavesExact 3 t = owns (c : Thread nD τ) (ms3 t) fullShare ((dats m 0 c).after 3 t) from by
        unfold Dat.leavesExact; rw [live3 t ((condLast_iff t).mpr h1)], after3]
      rw [outsAt_C m c t h0 h1]
      unfold outC soutC; (try dsimp only)
      rw [PhiS_castSucc m c t, PhiS_pos m c _ _ hz]
      iintro ⟨HS, Ho, ⟨%d0, H0⟩, ⟨%d1, H1⟩, ⟨%d2, H2⟩, ⟨%d3, H3⟩⟩
      iapply ((kernelRunC c (grid0.coords t) _ _ _ _ _ _ _ _ _ _ (fun h => h0 ((condFirst_iff t).mp h)) ((condLast_iff t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS]
      · unfold owns; iexists _; isplitr
        swap; · iexact HS
        ipureintro; exact View.read_writes_of_cover _ _ _ _ _ (scoverC c _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _ _)
    · rw [Dat.leavesExact_idle (dats m 0 c) 3 t (idle3 t (fun h => h1 ((condLast_iff t).mp h))) (noFlush3 t (fun h => h1 ((condLast_iff t).mp h)))]
      rw [outsAt_B m c t h0 h1]
      unfold soutB; (try dsimp only)
      rw [PhiS_castSucc m c t, PhiS_pos m c _ _ hz]
      iintro ⟨HS, Ho, ⟨%d0, H0⟩, ⟨%d1, H1⟩, ⟨%d2, H2⟩, ⟨%d3, H3⟩⟩
      iapply ((kernelRunB c (grid0.coords t) _ _ _ _ _ _ _ _ _ _ (fun h => h0 ((condFirst_iff t).mp h)) (fun h => h1 ((condLast_iff t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro; exact View.read_writes_of_cover _ _ _ _ _ (scoverB c _ _ _ _ _ _ _ _ _ _ _ _ _ _ _ _ _)
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the accumulator holds anything. -/
theorem Phi_in (c : Dev nD) : (dats m 0 c).Φ 0 = iprop(∃ d, owns (c : Thread nD τ) scM fullShare d) := rfl

/-- After the last point it holds something. -/
theorem Phi_out (c : Dev nD) : (dats m 0 c).Φ (Fin.last cfg0.N) ⊢ iprop(∃ d, owns (c : Thread nD τ) scM fullShare d) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 100 := N_0; omega)]
  iintro HS; iexists _; iexact HS

end Cert.KernelIdeal.Hand

end
-- ==== Proof.KiTail.lean ====
/-
  The host operations after the region, as one function of the five arguments they read and of the region's result:
  the linear head x * lin_w^T + lin_b, joined in front of the first 6156 columns of the region's 2048 x 6400 result,
  times fin_w^T, plus fin_b.
-/
import proofs.«137312_j20169166422772_1_alg».proof.Proof.Gen.KernelIdeal

noncomputable section

namespace Cert.KernelIdeal.Hand

open Cert.KernelIdeal Cert.KernelIdeal.Gen Idealize.ShloMosaic

variable {F : FTy → Type} [FloatOps F]

/-- What @main's last twelve operations compute. -/
def tailTerm (x0 : Vec F S2048x6156 .f32) (x1 : Vec F S3x6156 .f32) (x2 : Vec F S3 .f32) (x4 : Vec F S3x6159 .f32) (x5 : Vec F S3 .f32)
    (a : Vec F S2048x6400 .f32) : Vec F S2048x3 .f32 :=
  addf (Host.dotGeneral dot_S2048x6159_S6159x3_S2048x3_1_0_0_1_n_n none
      (concatenate S2048x6159 1 [⟨S2048x3, addf (Host.dotGeneral dot_S2048x6156_S6156x3_S2048x3_1_0_0_1_n_n none x0 (transpose S6156x3 [1, 0] x1 transposes_S3x6156_S6156x3_1_0)) (broadcastInDim S2048x3 ![0, 1] bcast_S1x3_S2048x3_0_1 (broadcastInDim S1x3 ![1] bcast_S3_S1x3_1 x2))⟩,
        ⟨S2048x6156, extractStridedSlice S2048x6156 ![0, 0] a slices_S2048x6400_S2048x6156_0_0⟩] concatenates_S2048x3_S2048x6156_S2048x6159_d1)
      (transpose S6159x3 [1, 0] x4 transposes_S3x6159_S6159x3_1_0))
    (broadcastInDim S2048x3 ![0, 1] bcast_S1x3_S2048x3_0_1 (broadcastInDim S1x3 ![1] bcast_S3_S1x3_1 x5))

end Cert.KernelIdeal.Hand

end
-- ==== Proof.KiLaunch.lean ====
/-
  The launch: @main as four short host stretches (two zero constants and the two zero-paddings, the paddings outlined
  as functions), the kernel region, and the twelve host operations after it; and what memory holds at the end.

  Between segments the core holds its unscoped buffers whole at a valuation. At the region's entry the padded x, which
  two windows read, is split into the two halves of the full share, one per window, and the padded w_int and the
  result array go to their windows whole; everything else bypasses the region. At its exit the two halves are joined
  again (an input window's array ends as it began) and the result array is at what the write-backs left. The last
  stretch then runs from that valuation.
-/
import proofs.«137312_j20169166422772_1_alg».proof.Proof.KiData
import proofs.«137312_j20169166422772_1_alg».proof.Proof.KiTail
import Idealize.ShloMosaic.Lib.Pipeline.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The pipeline library's algebra is the whole user algebra: the kernel has no semaphore of its own. -/
abbrev EP : Emb (UR sig nD τ) (MT nD τ sig Unit (Elt F) ℕ (UR sig nD τ) ℕ) := emb₁
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers through every segment: the core owing nothing. -/
abbrev R (c : Dev nD) : sProp 𝕄 := iprop(∃ W, owes (c : Thread nD τ) (0 : CellTallies nD τ sig Unit) W)

/-! ## The valuations between the segments -/

abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev W4 (c : Dev nD) : Valuation τ sig (Elt F) := StableHlo.after hostOps0_3 (W3 m c)

/-- Running the four stretches one after the other is running their concatenation. -/
theorem W4_eq (c : Dev nD) : W4 m c = V0 m c := rfl

/-- At the region's exit: the entry valuation with the result array at what the write-backs left. -/
def Vx (c : Dev nD) : Valuation τ sig (Elt F) :=
  Function.update (V0 m c) (Proc.devRef .tc main_v2) ((dats m 0 c).arrAt 3 cfg0.N)

/-- At the end. -/
abbrev Vend (c : Dev nD) : Valuation τ sig (Elt F) := StableHlo.after hostOps1 (Vx m c)

/-! ## The host segments -/

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh0_2 : ∀ op ∈ (hostOps0_2 : List (HloOp τ sig (Elt F))), op.fresh = ∅ := by
  intro _ h; (repeat (cases h with | head => rfl | tail _ h => ?_)); exact nomatch h
theorem fresh0_3 : ∀ op ∈ (hostOps0_3 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

def seg0 : Pipeline.HostSeg (Name := ℕ) (U := UR sig nD τ) (pcfgs (F := F)) defs₀ Variants.none L lv :=
  Pipeline.HostSeg.ofOps _ _ _ _ _ (Pipeline.ucRefs τ sig) hostOps0 (fun op h => Pipeline.sub_ucRefs op ((List.forall_iff_forall_mem.mp hostOps0_sub) op h)) fresh0 (W0 m) R
def seg1 : Pipeline.HostSeg (Name := ℕ) (U := UR sig nD τ) (pcfgs (F := F)) defs₀ Variants.none L lv :=
  Pipeline.HostSeg.ofOps _ _ _ _ _ (Pipeline.ucRefs τ sig) hostOps0_1 (fun op h => Pipeline.sub_ucRefs op ((List.forall_iff_forall_mem.mp hostOps0_1_sub) op h)) fresh0_1 (W1 m) R
def seg2 : Pipeline.HostSeg (Name := ℕ) (U := UR sig nD τ) (pcfgs (F := F)) defs₀ Variants.none L lv :=
  Pipeline.HostSeg.ofOps _ _ _ _ _ (Pipeline.ucRefs τ sig) hostOps0_2 (fun op h => Pipeline.sub_ucRefs op ((List.forall_iff_forall_mem.mp hostOps0_2_sub) op h)) fresh0_2 (W2 m) R
def seg3 : Pipeline.HostSeg (Name := ℕ) (U := UR sig nD τ) (pcfgs (F := F)) defs₀ Variants.none L lv :=
  Pipeline.HostSeg.ofOps _ _ _ _ _ (Pipeline.ucRefs τ sig) hostOps0_3 (fun op h => Pipeline.sub_ucRefs op ((List.forall_iff_forall_mem.mp hostOps0_3_sub) op h)) fresh0_3 (W3 m) R
def segT : Pipeline.HostSeg (Name := ℕ) (U := UR sig nD τ) (pcfgs (F := F)) defs₀ Variants.none L lv :=
  Pipeline.HostSeg.ofOps _ _ _ _ _ (Pipeline.ucRefs τ sig) hostOps1 (fun op h => Pipeline.sub_ucRefs op ((List.forall_iff_forall_mem.mp hostOps1_sub) op h)) fresh1 (Vx m) R

/-! ## The region -/

/-- The buffers behind the windows' arrays. -/
def arrSet : Finset (DevRef τ sig) := {Proc.devRef .tc main_v0, Proc.devRef .tc main_v1, Proc.devRef .tc main_v2}

theorem arrSet_sub : (arrSet : Finset (DevRef τ sig)) ⊆ Pipeline.ucRefs τ sig := by decide

theorem v2_mem_arrSet : (Proc.devRef .tc main_v2 : DevRef τ sig) ∈ arrSet := by decide

/-- The three buffers, held whole at a valuation, one by one. -/
theorem held_arrSet (c : Thread nD τ) (W : Valuation τ sig (Elt F)) :
    (StableHlo.held c arrSet W : sProp 𝕄) = iprop(((c.1, Proc.devRef .tc main_v0) ↦{fullShare} W (Proc.devRef .tc main_v0)) ∗ ((c.1, Proc.devRef .tc main_v1) ↦{fullShare} W (Proc.devRef .tc main_v1)) ∗ ((c.1, Proc.devRef .tc main_v2) ↦{fullShare} W (Proc.devRef .tc main_v2))) := by
  unfold StableHlo.held arrSet
  rw [bigSep_insert (by decide), bigSep_insert (by decide), bigSep_singleton]
  rfl

/-- The pipeline's arrays, window by window: the padded x at the left half for its contraction window and at the
    right half for its column window, the padded w_int and the result whole. -/
theorem arrays4 (c : Dev nD) (Fw : (w : Fin cfg0.W) → Buf (Elt F) ((cfg0.win w).arr.view.loc (c.tc : Thread nD τ))) :
    ((dats m 0 c).arrays Fw : sProp 𝕄) = iprop((((c.tc : Thread nD τ).1, Proc.devRef .tc main_v0) ↦{fullShare.left} Fw 0) ∗ (((c.tc : Thread nD τ).1, Proc.devRef .tc main_v1) ↦{fullShare} Fw 1)
      ∗ (((c.tc : Thread nD τ).1, Proc.devRef .tc main_v0) ↦{fullShare.right} Fw 2) ∗ (((c.tc : Thread nD τ).1, Proc.devRef .tc main_v2) ↦{fullShare} Fw 3)) := by
  unfold Dat.arrays; rw [bigSep_W0]
  rw [(arr_whole0 0).set_eq_univ, (arr_whole0 1).set_eq_univ, (arr_whole0 3).set_eq_univ]
  rfl

/-- Off the result array the exit valuation is the entry one; at it, what the write-backs left. -/
theorem Vx_of_ne (c : Dev nD) (b : DevRef τ sig) (h : b ≠ Proc.devRef .tc main_v2) : Vx m c b = V0 m c b := by
  unfold Vx; exact Function.update_of_ne h _ _
theorem Vx_v2 (c : Dev nD) : Vx m c (Proc.devRef .tc main_v2) = (dats m 0 c).arrAt 3 cfg0.N := by
  unfold Vx; exact Function.update_self _ _ _

/-- An input window's array ends as it began. -/
theorem arrAt_in0 (c : Dev nD) : (dats m 0 c).arrAt 0 cfg0.N = V0 m c (Proc.devRef .tc main_v0) :=
  ((dats m 0 c).arrAt_in 0 rfl _).trans (A_eq m c 0)
theorem arrAt_in1 (c : Dev nD) : (dats m 0 c).arrAt 1 cfg0.N = V0 m c (Proc.devRef .tc main_v1) :=
  ((dats m 0 c).arrAt_in 1 rfl _).trans (A_eq m c 1)
theorem arrAt_in2 (c : Dev nD) : (dats m 0 c).arrAt 2 cfg0.N = V0 m c (Proc.devRef .tc main_v0) :=
  ((dats m 0 c).arrAt_in 2 rfl _).trans (A_eq m c 2)

set_option backward.isDefEq.respectTransparency.types false in
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (Vx m c) ∗ R c)
  X _ := iprop(emp)
  Y _ := iprop(emp)
  Z c := StableHlo.held (c : Thread nD τ) (Pipeline.ucRefs τ sig \ arrSet) (V0 m c)
  hentry c := by
    rw [W4_eq m c, Pipeline.ownSems0_none, StableHlo.held_sub_split (c : Thread nD τ) arrSet_sub (V0 m c), held_arrSet, arrays4]
    have hsplit := (pointsTo_share (ℓ := ((c.tc : Thread nD τ).1, Proc.devRef .tc main_v0)) (I := Finset.univ) (f := V0 m c (Proc.devRef .tc main_v0)) (PosShare.mem_left_op_right fullShare) : _ ⊣⊢ (_ : sProp 𝕄)).1
    iintro ⟨⟨⟨⟨H0, H1, H2⟩, Hrest⟩, HO⟩, -, -⟩
    ihave H0' := hsplit $$ H0
    icases H0' with ⟨H0l, H0r⟩
    imodintro
    isplitl [H0l H1 H0r H2]
    · isplitl [H0l]; · iexact H0l
      isplitl [H1]; · iexact H1
      isplitl [H0r]; · iexact H0r
      iexact H2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [Phi_in m c]
    iintro ⟨-, -, Hr⟩
    iapply (Entails.of_eq (scopedRest_eq_scratch (F := F) c))
    iexact Hr
  hout c := by
    refine (Phi_out m c).trans ?_
    rw [Pipeline.ownSems0_none]
    iintro H
    isplitr; · iempintro
    isplitr; · iempintro
    iapply (Entails.of_eq (scopedRest_eq_scratch (F := F) c).symm)
    iexact H
  hexit c := by
    rw [arrays4, StableHlo.held_sub_split (c : Thread nD τ) arrSet_sub (Vx m c), held_arrSet,
      Vx_of_ne m c _ (by decide), Vx_of_ne m c _ (by decide), Vx_v2,
      StableHlo.held_congr (c := (c : Thread nD τ)) (S := Pipeline.ucRefs τ sig \ arrSet) (V := Vx m c) (V' := V0 m c)
        (fun b hb => Vx_of_ne m c b (fun e => (Finset.mem_sdiff.mp hb).2 (e ▸ v2_mem_arrSet)))]
    have e0l := Entails.of_eq (congrArg (fun f => ((((c.tc : Thread nD τ).1, Proc.devRef .tc main_v0) ↦{fullShare.left} f : sProp 𝕄))) (arrAt_in0 m c))
    have e0r := Entails.of_eq (congrArg (fun f => ((((c.tc : Thread nD τ).1, Proc.devRef .tc main_v0) ↦{fullShare.right} f : sProp 𝕄))) (arrAt_in2 m c))
    have e1 := Entails.of_eq (congrArg (fun f => ((((c.tc : Thread nD τ).1, Proc.devRef .tc main_v1) ↦{fullShare} f : sProp 𝕄))) (arrAt_in1 m c))
    have hjoin := (pointsTo_share (ℓ := ((c.tc : Thread nD τ).1, Proc.devRef .tc main_v0)) (I := Finset.univ) (f := V0 m c (Proc.devRef .tc main_v0)) (PosShare.mem_left_op_right fullShare) : _ ⊣⊢ (_ : sProp 𝕄)).2
    iintro ⟨⟨H0l, H1, H0r, H2⟩, HO, -, HZ⟩
    ihave H0l' := e0l $$ H0l
    ihave H0r' := e0r $$ H0r
    ihave H1' := e1 $$ H1
    ihave H0 := hjoin $$ [H0l' H0r']
    · isplitl [H0l'] <;> iassumption
    imodintro
    isplitr [HO]
    · isplitr [HZ]
      · isplitl [H0]; · iexact H0
        isplitl [H1']; · iexact H1'
        iexact H2
      · iexact HZ
    · unfold Pipeline.Dat.owesAt Pipeline.owesWithin
      icases HO with ⟨%W, -, HO⟩; iexists W; iexact HO

abbrev segs : List (Pipeline.Seg (pcfgs (F := F)) adm (dats m) () defs₀ Variants.none L lv) :=
  [.host (seg0 m), .host (seg1 m), .host (seg2 m), .host (seg3 m), .region (reg0 m), .host (segT m)]

set_option backward.isDefEq.respectTransparency.types false in
/-- At the compiled mesh, for any float values, from any memory with zero counters: every weakly fair execution of
    @main on the TensorCores terminates, and every final state has every unscoped buffer at `Vend`. -/
theorem run_main : θ_run defs (onTc (τ := τ) (main (F := F))) ⟨m, fun _ => 0, ρ⟩
    (fun r => ∀ c : Dev nD, ∀ b ∈ Pipeline.ucRefs τ sig, r.2.mem ((c.tc : Thread nD τ).1, b) = Vend m c b) :=
  Pipeline.θ_run_regions_kit (pcfgs (F := F)) adm (dats m) () cellOf_inj EP defs₀ Variants.none L lv m ρ main (segs m)
    (fun c Q => by rw [main_chain, Pipeline.Seg.run_eq_chain]; rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (Vend m c))
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∀ b ∈ Pipeline.ucRefs τ sig, s.mem ((c.tc : Thread nD τ).1, b) = Vend m c b)
    (hfin := fun c s' => by
      unfold StableHlo.held
      iintro ⟨H, HSI⟩
      imodintro
      iapply (pointsTo_read_all (Pipeline.ucRefs τ sig) (fun b => ((c.tc : Thread nD τ).1, b)) (Vend m c) s')
      isplitl [H] <;> iassumption)
    (hQ := fun _ h => h)

end Cert.KernelIdeal.Hand

end
-- ==== Proof.KiEnd.lean ====
/-
  What memory holds at the end: no host operation and no write-back touches an argument array, so each ends as it
  was launched; the result buffer holds the last twelve operations' value over the five arguments they read and the
  region's result array as the write-backs left it.
-/
import proofs.«137312_j20169166422772_1_alg».proof.Proof.KiLaunch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! ## The arguments reach the region, and the end, as launched -/

theorem V0_arg0 (c : Dev nD) : V0 m c (Proc.devRef .tc main_arg0) = m ((c.tc : Thread nD τ).loc main_arg0) := by
  dsimp only [V0]
  simp only [hostOps0, hostOps0_1, hostOps0_2, hostOps0_3, List.flatten_cons, List.flatten_nil, List.append_nil, List.cons_append, List.nil_append]
  after_results
theorem V0_arg1 (c : Dev nD) : V0 m c (Proc.devRef .tc main_arg1) = m ((c.tc : Thread nD τ).loc main_arg1) := by
  dsimp only [V0]
  simp only [hostOps0, hostOps0_1, hostOps0_2, hostOps0_3, List.flatten_cons, List.flatten_nil, List.append_nil, List.cons_append, List.nil_append]
  after_results
theorem V0_arg2 (c : Dev nD) : V0 m c (Proc.devRef .tc main_arg2) = m ((c.tc : Thread nD τ).loc main_arg2) := by
  dsimp only [V0]
  simp only [hostOps0, hostOps0_1, hostOps0_2, hostOps0_3, List.flatten_cons, List.flatten_nil, List.append_nil, List.cons_append, List.nil_append]
  after_results
theorem V0_arg3 (c : Dev nD) : V0 m c (Proc.devRef .tc main_arg3) = m ((c.tc : Thread nD τ).loc main_arg3) := by
  dsimp only [V0]
  simp only [hostOps0, hostOps0_1, hostOps0_2, hostOps0_3, List.flatten_cons, List.flatten_nil, List.append_nil, List.cons_append, List.nil_append]
  after_results
theorem V0_arg4 (c : Dev nD) : V0 m c (Proc.devRef .tc main_arg4) = m ((c.tc : Thread nD τ).loc main_arg4) := by
  dsimp only [V0]
  simp only [hostOps0, hostOps0_1, hostOps0_2, hostOps0_3, List.flatten_cons, List.flatten_nil, List.append_nil, List.cons_append, List.nil_append]
  after_results
theorem V0_arg5 (c : Dev nD) : V0 m c (Proc.devRef .tc main_arg5) = m ((c.tc : Thread nD τ).loc main_arg5) := by
  dsimp only [V0]
  simp only [hostOps0, hostOps0_1, hostOps0_2, hostOps0_3, List.flatten_cons, List.flatten_nil, List.append_nil, List.cons_append, List.nil_append]
  after_results

theorem Vend_arg0 (c : Dev nD) : Vend m c (Proc.devRef .tc main_arg0) = m ((c.tc : Thread nD τ).loc main_arg0) := by
  have h : Vend m c (Proc.devRef .tc main_arg0) = Vx m c (Proc.devRef .tc main_arg0) := by
    show StableHlo.after hostOps1 (Vx m c) (Proc.devRef .tc main_arg0) = _
    after_results
  rw [h, Vx_of_ne m c _ (by decide), V0_arg0]
theorem Vend_arg1 (c : Dev nD) : Vend m c (Proc.devRef .tc main_arg1) = m ((c.tc : Thread nD τ).loc main_arg1) := by
  have h : Vend m c (Proc.devRef .tc main_arg1) = Vx m c (Proc.devRef .tc main_arg1) := by
    show StableHlo.after hostOps1 (Vx m c) (Proc.devRef .tc main_arg1) = _
    after_results
  rw [h, Vx_of_ne m c _ (by decide), V0_arg1]
theorem Vend_arg2 (c : Dev nD) : Vend m c (Proc.devRef .tc main_arg2) = m ((c.tc : Thread nD τ).loc main_arg2) := by
  have h : Vend m c (Proc.devRef .tc main_arg2) = Vx m c (Proc.devRef .tc main_arg2) := by
    show StableHlo.after hostOps1 (Vx m c) (Proc.devRef .tc main_arg2) = _
    after_results
  rw [h, Vx_of_ne m c _ (by decide), V0_arg2]
theorem Vend_arg3 (c : Dev nD) : Vend m c (Proc.devRef .tc main_arg3) = m ((c.tc : Thread nD τ).loc main_arg3) := by
  have h : Vend m c (Proc.devRef .tc main_arg3) = Vx m c (Proc.devRef .tc main_arg3) := by
    show StableHlo.after hostOps1 (Vx m c) (Proc.devRef .tc main_arg3) = _
    after_results
  rw [h, Vx_of_ne m c _ (by decide), V0_arg3]
theorem Vend_arg4 (c : Dev nD) : Vend m c (Proc.devRef .tc main_arg4) = m ((c.tc : Thread nD τ).loc main_arg4) := by
  have h : Vend m c (Proc.devRef .tc main_arg4) = Vx m c (Proc.devRef .tc main_arg4) := by
    show StableHlo.after hostOps1 (Vx m c) (Proc.devRef .tc main_arg4) = _
    after_results
  rw [h, Vx_of_ne m c _ (by decide), V0_arg4]
theorem Vend_arg5 (c : Dev nD) : Vend m c (Proc.devRef .tc main_arg5) = m ((c.tc : Thread nD τ).loc main_arg5) := by
  have h : Vend m c (Proc.devRef .tc main_arg5) = Vx m c (Proc.devRef .tc main_arg5) := by
    show StableHlo.after hostOps1 (Vx m c) (Proc.devRef .tc main_arg5) = _
    after_results
  rw [h, Vx_of_ne m c _ (by decide), V0_arg5]

/-- The result buffer at the end. -/
theorem Vend_v14 (c : Dev nD) :
    Vend m c (Proc.devRef .tc main_v14) = tailTerm (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg5)) ((dats m 0 c).arrAt 3 cfg0.N) := by
  show StableHlo.after hostOps1 (Vx m c) (Proc.devRef .tc main_v14) = _
  after_results
  rw [Vx_of_ne m c (Proc.devRef .tc main_arg0) (by decide), Vx_of_ne m c (Proc.devRef .tc main_arg1) (by decide), Vx_of_ne m c (Proc.devRef .tc main_arg2) (by decide),
    Vx_of_ne m c (Proc.devRef .tc main_arg4) (by decide), Vx_of_ne m c (Proc.devRef .tc main_arg5) (by decide), Vx_v2,
    V0_arg0, V0_arg1, V0_arg2, V0_arg4, V0_arg5]
  rfl

theorem mem_arg0 : (Proc.devRef .tc main_arg0 : DevRef τ sig) ∈ Pipeline.ucRefs τ sig := by decide
theorem mem_arg1 : (Proc.devRef .tc main_arg1 : DevRef τ sig) ∈ Pipeline.ucRefs τ sig := by decide
theorem mem_arg2 : (Proc.devRef .tc main_arg2 : DevRef τ sig) ∈ Pipeline.ucRefs τ sig := by decide
theorem mem_arg3 : (Proc.devRef .tc main_arg3 : DevRef τ sig) ∈ Pipeline.ucRefs τ sig := by decide
theorem mem_arg4 : (Proc.devRef .tc main_arg4 : DevRef τ sig) ∈ Pipeline.ucRefs τ sig := by decide
theorem mem_arg5 : (Proc.devRef .tc main_arg5 : DevRef τ sig) ∈ Pipeline.ucRefs τ sig := by decide
theorem mem_v14 : (Proc.devRef .tc main_v14 : DevRef τ sig) ∈ Pipeline.ucRefs τ sig := by decide

/-! ## The run's result and the frame -/

/-- Every weakly fair execution of @main terminates with the result buffer at the tail's value over the region's final
    array, and the six arguments unchanged. -/
theorem run_result : θ_run defs (onTc (τ := τ) (main (F := F))) ⟨m, fun _ => 0, ρ⟩ (fun r => ∀ c : Dev nD,
      r.2.mem ((c.tc : Thread nD τ).loc main_v14) = tailTerm (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ mem_v14).trans (Vend_v14 m c),
      (h c _ mem_arg0).trans (Vend_arg0 m c),
      (h c _ mem_arg1).trans (Vend_arg1 m c),
      (h c _ mem_arg2).trans (Vend_arg2 m c),
      (h c _ mem_arg3).trans (Vend_arg3 m c),
      (h c _ mem_arg4).trans (Vend_arg4 m c),
      (h c _ mem_arg5).trans (Vend_arg5 m c)⟩) (run_main m ρ)

/-- The frame: it runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)) :=
  (θ_run defs _ _).mono (fun r h c => (h c).2) (run_result m ρ)

end Cert.KernelIdeal.Hand

end
-- ==== Proof.KiPieces.lean ====
/-
  What each case's pieces read back to: the accumulator after a k = 0 point is the update of the zero block, after a
  later point the update of what the point before left; the output block at k = 9 is x_j times the updated accumulator.
-/
import proofs.«137312_j20169166422772_1_alg».proof.Proof.KiData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The offset of every load and store of the body is zero on both axes. -/
private theorem offZero : (![0, 0] : Fin 2 → Nat) = fun _ => 0 := funext fun a => by fin_cases a <;> rfl

theorem soutA_eq (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : condFirst i) (hc1 : ¬condLast i) (x0 : Vec F S1024x640 .f32) (x1 : Vec F S1280x640 .f32) (x2 : Vec F S1024x1280 .f32) :
    soutA (F := F) c i arg3 harg3 arg4 harg4 arg5 harg5 arg6 harg6 arg7 harg7 hc0 hc1 x0 x1 x2 = k0_pay2 x0 x1 (k0_pay1 (F := F)) := by
  unfold soutA
  rw [View.read_writes_eq_canon _ _ _ (scoverA c i arg3 harg3 arg4 harg4 arg5 harg5 arg6 harg6 arg7 harg7 hc0 hc1 x0 x1 x2)]
  unfold kernelRunA
  dsimp only
  sl_unfold_words
  rw [View.canon_cons_unit_zero (S := S1024x1280) offZero, View.readCov_unit_zero (S := S1024x1280) _ offZero]
  simp only [View.readAt_eq_ld, harg3.read_unread, harg4.read_unread, harg5.read_unread, harg7.read_unread, View.ld_unit_zero (S := S1024x640) offZero, View.ld_unit_zero (S := S1280x640) offZero, View.ld_unit_zero (S := S1024x1280) offZero]

theorem soutB_eq (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬condFirst i) (hc1 : ¬condLast i) (x0 : Vec F S1024x640 .f32) (x1 : Vec F S1280x640 .f32) (x2 : Vec F S1024x1280 .f32) (xs : Vec F S1024x1280 .f32) :
    soutB (F := F) c i arg3 harg3 arg4 harg4 arg5 harg5 arg6 harg6 arg7 harg7 hc0 hc1 x0 x1 x2 xs = k0_pay2 x0 x1 xs := by
  unfold soutB
  rw [View.read_writes_eq_canon _ _ _ (scoverB c i arg3 harg3 arg4 harg4 arg5 harg5 arg6 harg6 arg7 harg7 hc0 hc1 x0 x1 x2 xs)]
  unfold kernelRunB
  dsimp only
  sl_unfold_words
  rw [View.canon_unit_zero offZero]
  simp only [View.readAt_eq_ld, harg3.read_unread, harg4.read_unread, harg5.read_unread, harg7.read_unread, View.ld_unit_zero (S := S1024x640) offZero, View.ld_unit_zero (S := S1280x640) offZero, View.ld_unit_zero (S := S1024x1280) offZero]

theorem soutC_eq (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬condFirst i) (hc1 : condLast i) (x0 : Vec F S1024x640 .f32) (x1 : Vec F S1280x640 .f32) (x2 : Vec F S1024x1280 .f32) (xs : Vec F S1024x1280 .f32) :
    soutC (F := F) c i arg3 harg3 arg4 harg4 arg5 harg5 arg6 harg6 arg7 harg7 hc0 hc1 x0 x1 x2 xs = k0_pay2 x0 x1 xs := by
  unfold soutC
  rw [View.read_writes_eq_canon _ _ _ (scoverC c i arg3 harg3 arg4 harg4 arg5 harg5 arg6 harg6 arg7 harg7 hc0 hc1 x0 x1 x2 xs)]
  unfold kernelRunC
  dsimp only
  sl_unfold_words
  rw [View.canon_unit_zero offZero]
  simp only [View.readAt_eq_ld, harg3.read_unread, harg4.read_unread, harg5.read_unread, harg7.read_unread, View.ld_unit_zero (S := S1024x640) offZero, View.ld_unit_zero (S := S1280x640) offZero, View.ld_unit_zero (S := S1024x1280) offZero]

theorem outC_eq (c : Dev nD) (i : grid0.Coords) (arg3 : Memref sig .tc .vmem S1024x640 .f32) (harg3 : arg3.IsWhole) (arg4 : Memref sig .tc .vmem S1280x640 .f32) (harg4 : arg4.IsWhole) (arg5 : Memref sig .tc .vmem S1024x1280 .f32) (harg5 : arg5.IsWhole) (arg6 : Memref sig .tc .vmem S1024x1280 .f32) (harg6 : arg6.IsWhole) (arg7 : Memref sig .tc .vmem S1024x1280 .f32) (harg7 : arg7.IsWhole) (hc0 : ¬condFirst i) (hc1 : condLast i) (x0 : Vec F S1024x640 .f32) (x1 : Vec F S1280x640 .f32) (x2 : Vec F S1024x1280 .f32) (xs : Vec F S1024x1280 .f32) :
    outC (F := F) c i arg3 harg3 arg4 harg4 arg5 harg5 arg6 harg6 arg7 harg7 hc0 hc1 x0 x1 x2 xs = k0_pay3 x2 (k0_pay2 x0 x1 xs) := by
  unfold outC
  rw [View.read_writes_eq_canon _ _ _ (coverC c i arg3 harg3 arg4 harg4 arg5 harg5 arg6 harg6 arg7 harg7 hc0 hc1 x0 x1 x2 xs)]
  unfold kernelRunC
  dsimp only
  sl_unfold_words
  rw [View.canon_unit_zero offZero]
  simp only [View.readAt_eq_ld, harg3.read_unread, harg4.read_unread, harg5.read_unread, harg7.read_unread, View.readCov_unit_zero (S := S1024x1280) _ offZero, View.ld_unit_zero (S := S1024x640) offZero, View.ld_unit_zero (S := S1280x640) offZero, View.ld_unit_zero (S := S1024x1280) offZero]

end Cert.KernelIdeal.Hand

end
-- ==== Proof.LibPlainDot.lean ====
/-
  A plain two-dimensional matrix product read at an entry.

  For a dot whose dimension numbers are those of `rows × contraction` times `contraction × columns` — left
  contracting axis 1, right contracting axis 0, the remaining left axis then the remaining right axis as the result's
  axes, no batch axis — the left operand's index at result entry `(p, q)` and contraction position `k` is `(p, k)`,
  the right operand's is `(k, q)`. So, on the extended reals, a kernel's `matmul` into the zero accumulator and a
  host `dot_general` are both the textbook sum `∑ k, l (p, k) * r (k, q)` over `k : Fin K`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

variable {R K C : ℕ} (d : DotDims (⟨2, ![R, K]⟩ : Shape) (⟨2, ![K, C]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![R, C]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0]) (hrn : d.rhsNonContracting = [1])
    (j : (⟨2, ![R, C]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction shape has one axis, of extent `K`. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K` with the operands read at `(p, k)` and `(k, q)`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![R, K]⟩ : Shape).Idx → EReal) (r : (⟨2, ![K, C]⟩ : Shape).Idx → EReal) (p : Fin R) (q : Fin C) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 k q := by
    funext a; apply Fin.ext
    match a with
    | ⟨0, _⟩ => exact (rhs_row d hrc _ _).trans hk
    | ⟨1, _⟩ => exact rhs_col d hlb hrb hln hrn _ _
  rw [el, er]

/-- A kernel's matrix product into the zero accumulator, at an entry, on the extended reals. -/
theorem matmul_zero_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal (⟨2, ![R, K]⟩ : Shape) φ₁) (r : FVec Ideal (⟨2, ![K, C]⟩ : Shape) φ₂) (p : Fin R) (q : Fin C) :
    FloatOps.matmul d prec l r (constant (⟨2, ![R, C]⟩ : Shape) .f32 0x00000000#32) (ix2 p q) = ∑ k : Fin K, l (ix2 p k) * r (ix2 k q) :=
  (Ideal.matmul_constant_zero_apply d prec l r (ix2 p q)).trans (sum_contr d hlc hrc hln hrn hlb hrb l r p q)

/-- The host's `dot_general`, at an entry, on the extended reals: the same sum. -/
theorem dotGeneral_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision) (sched : HostSchedule)
    (l : FVec Ideal (⟨2, ![R, K]⟩ : Shape) φ₁) (r : FVec Ideal (⟨2, ![K, C]⟩ : Shape) φ₂) (p : Fin R) (q : Fin C) :
    FloatOps.dotGeneral d prec sched l r (ix2 p q) = ∑ k : Fin K, l (ix2 p k) * r (ix2 k q) :=
  (Ideal.dotGeneral_apply d prec sched l r (ix2 p q)).trans (sum_contr d hlc hrc hln hrn hlb hrb l r p q)

end Cert.PlainDot

end
-- ==== Proof.KiPay.lean ====
/-
  The body's three stored values read at an entry, on the extended reals: the zero block is 0; the accumulator's update
  at (p, q) is the old accumulator there plus the sum over the 640 contraction positions k of x_k(p, k) * w(q, k) (the
  casts to bf16 are the identity, the transpose swaps w's coordinates, the matrix product into zero is the textbook
  sum); the output value is x_j(p, q) times the accumulator there.
-/
import proofs.«137312_j20169166422772_1_alg».proof.Proof.Gen.KernelIdeal.Skeleton
import proofs.«137312_j20169166422772_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- A cast to the same shape of the zero splat is the zero splat: every entry is the extended real 0. -/
theorem pay1_apply (p : Fin 1024) (q : Fin 1280) : k0_pay1 (F := Ideal) (ix2 p q) = 0 := by
  unfold k0_pay1
  show shapeCast S1024x1280 (broadcast S1024x1280 (Scalar.ofBits (F := Ideal) .f32 0x00000000#32))
    shapeCasts_S1024x1280_S1024x1280 (ix2 p q) = 0
  rw [shapeCast_self]
  exact Ideal.ofBits_zero_f32

/-- The transposed right operand read at (k, q) is the operand at (q, k); the cast to bf16 is the identity. -/
private theorem rhs_apply (x1 : Vec Ideal S1280x640 .f32) (k : Fin 640) (q : Fin 1280) :
    transpose S640x1280 [1, 0] (truncf (F := Ideal) .bf16 x1 bitsLt_bf16_f32) transposes_S1280x640_p1_0_S640x1280 (ix2 k q)
      = x1 (ix2 q k) :=
  transpose_ix2_apply (truncf (F := Ideal) .bf16 x1 bitsLt_bf16_f32) transposes_S1280x640_p1_0_S640x1280 k q

theorem pay2_apply (x0 : Vec Ideal S1024x640 .f32) (x1 : Vec Ideal S1280x640 .f32) (acc : Vec Ideal S1024x1280 .f32)
    (p : Fin 1024) (q : Fin 1280) :
    k0_pay2 (F := Ideal) x0 x1 acc (ix2 p q) = acc (ix2 p q) + ∑ k : Fin 640, x0 (ix2 p k) * x1 (ix2 q k) := by
  unfold k0_pay2
  show shapeCast S1024x1280 (addf acc (matmul dot_S1024x640_S640x1280_S1024x1280_1_0_0_1_n_n none
      (truncf (F := Ideal) .bf16 (shapeCast S1024x640 x0 shapeCasts_S1024x640_S1024x640) bitsLt_bf16_f32)
      (transpose S640x1280 [1, 0] (truncf (F := Ideal) .bf16 (shapeCast S1280x640 x1 shapeCasts_S1280x640_S1280x640) bitsLt_bf16_f32)
        transposes_S1280x640_p1_0_S640x1280)
      (constant S1024x1280 .f32 0x00000000#32))) shapeCasts_S1024x1280_S1024x1280 (ix2 p q) = _
  rw [shapeCast_self, shapeCast_self, shapeCast_self]
  show acc (ix2 p q) + FloatOps.matmul dot_S1024x640_S640x1280_S1024x1280_1_0_0_1_n_n none
      (truncf (F := Ideal) .bf16 x0 bitsLt_bf16_f32)
      (transpose S640x1280 [1, 0] (truncf (F := Ideal) .bf16 x1 bitsLt_bf16_f32) transposes_S1280x640_p1_0_S640x1280)
      (constant (⟨2, ![1024, 1280]⟩ : Shape) .f32 0x00000000#32) (ix2 p q) = _
  refine congrArg (acc (ix2 p q) + ·) ?_
  refine (Cert.PlainDot.matmul_zero_apply dot_S1024x640_S640x1280_S1024x1280_1_0_0_1_n_n rfl rfl rfl rfl rfl rfl none _ _ p q).trans ?_
  refine Finset.sum_congr rfl fun k _ => ?_
  exact congrArg (x0 (ix2 p k) * ·) (rhs_apply x1 k q)

theorem pay3_apply (x2 : Vec Ideal S1024x1280 .f32) (acc : Vec Ideal S1024x1280 .f32) (p : Fin 1024) (q : Fin 1280) :
    k0_pay3 (F := Ideal) x2 acc (ix2 p q) = x2 (ix2 p q) * acc (ix2 p q) := by
  unfold k0_pay3
  show mulf (F := Ideal) (φ := .f32) (shapeCast S1024x1280 x2 shapeCasts_S1024x1280_S1024x1280) acc (ix2 p q) = _
  rw [shapeCast_self]
  rfl

end Cert.KernelIdeal.Hand

end
-- ==== Proof.KiBlocks.lean ====
/-
  The windows' blocks and the padded arrays, read at an entry.

  Point t of the grid is (row tile b, column tile j, contraction tile k) = (t / 50, t / 10 mod 5, t mod 10). Window 0
  stages rows 1024 b .. and columns 640 k .. of the padded x; window 1 rows 1280 j .. and columns 640 k .. of the padded
  w_int; window 2 rows 1024 b .. and columns 1280 j .. of the padded x. The padded x is x with 244 zero columns appended;
  the padded w_int is w_int with 244 zero rows and 244 zero columns appended.
-/
import proofs.«137312_j20169166422772_1_alg».proof.Proof.KiCases
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

/-- The padded x and the padded w_int as the region finds them, and the two arguments they are made from. -/
abbrev xpad (c : Dev nD) : Vec F S2048x6400 .f32 := V m c main_v0
abbrev wpad (c : Dev nD) : Vec F S6400x6400 .f32 := V m c main_v1
abbrev xarg (c : Dev nD) : Vec F S2048x6156 .f32 := m ((c : Thread nD τ).loc main_arg0)
abbrev warg (c : Dev nD) : Vec F S6156x6156 .f32 := m ((c : Thread nD τ).loc main_arg3)

/-- The block indices of the three input windows at point t: (t / 50, t mod 10), (t / 10 mod 5, t mod 10) and
    (t / 50, t / 10 mod 5). -/
theorem blockIdx0 : ∀ t : Fin cfg0.N, win0_0.index t (0 : Fin 2) = t.val / 50 ∧ win0_0.index t (1 : Fin 2) = t.val % 10 :=
  (by decide +kernel : ∀ t : Fin grid0.N, win0_0.index t (0 : Fin 2) = t.val / 50 ∧ win0_0.index t (1 : Fin 2) = t.val % 10)
theorem blockIdx1 : ∀ t : Fin cfg0.N, win0_1.index t (0 : Fin 2) = t.val / 10 % 5 ∧ win0_1.index t (1 : Fin 2) = t.val % 10 :=
  (by decide +kernel : ∀ t : Fin grid0.N, win0_1.index t (0 : Fin 2) = t.val / 10 % 5 ∧ win0_1.index t (1 : Fin 2) = t.val % 10)
theorem blockIdx2 : ∀ t : Fin cfg0.N, win0_2.index t (0 : Fin 2) = t.val / 50 ∧ win0_2.index t (1 : Fin 2) = t.val / 10 % 5 :=
  (by decide +kernel : ∀ t : Fin grid0.N, win0_2.index t (0 : Fin 2) = t.val / 50 ∧ win0_2.index t (1 : Fin 2) = t.val / 10 % 5)

/-- A block's entry is the array's entry at block index times block size plus the coordinate inside the block, on each axis. -/
theorem iblk0_apply (c : Dev nD) (t : Fin cfg0.N) (p : Fin 1024) (kk : Fin 640)
    (hr : 1024 * (t.val / 50) + p.val < 2048) (hk : 640 * (t.val % 10) + kk.val < 6400) :
    (iblk m c 0 t : Vec F S1024x640 .f32) (ix2 p kk) = xpad m c (ix2 ⟨1024 * (t.val / 50) + p.val, hr⟩ ⟨640 * (t.val % 10) + kk.val, hk⟩) := by
  obtain ⟨e0, e1⟩ := blockIdx0 t
  show V m c main_v0 (((cfg0.win 0).blk t).view.emb (ix2 p kk)) = V m c main_v0 _
  refine congrArg _ ?_
  funext a; apply Fin.ext
  match a with
  | ⟨0, _⟩ => show win0_0.index t (0 : Fin 2) * 1024 + 1 * p.val = 1024 * (t.val / 50) + p.val; omega
  | ⟨1, _⟩ => show win0_0.index t (1 : Fin 2) * 640 + 1 * kk.val = 640 * (t.val % 10) + kk.val; omega

theorem iblk1_apply (c : Dev nD) (t : Fin cfg0.N) (q : Fin 1280) (kk : Fin 640)
    (hq : 1280 * (t.val / 10 % 5) + q.val < 6400) (hk : 640 * (t.val % 10) + kk.val < 6400) :
    (iblk m c 1 t : Vec F S1280x640 .f32) (ix2 q kk) = wpad m c (ix2 ⟨1280 * (t.val / 10 % 5) + q.val, hq⟩ ⟨640 * (t.val % 10) + kk.val, hk⟩) := by
  obtain ⟨e0, e1⟩ := blockIdx1 t
  show V m c main_v1 (((cfg0.win 1).blk t).view.emb (ix2 q kk)) = V m c main_v1 _
  refine congrArg _ ?_
  funext a; apply Fin.ext
  match a with
  | ⟨0, _⟩ => show win0_1.index t (0 : Fin 2) * 1280 + 1 * q.val = 1280 * (t.val / 10 % 5) + q.val; omega
  | ⟨1, _⟩ => show win0_1.index t (1 : Fin 2) * 640 + 1 * kk.val = 640 * (t.val % 10) + kk.val; omega

theorem iblk2_apply (c : Dev nD) (t : Fin cfg0.N) (p : Fin 1024) (q : Fin 1280)
    (hr : 1024 * (t.val / 50) + p.val < 2048) (hq : 1280 * (t.val / 10 % 5) + q.val < 6400) :
    (iblk m c 2 t : Vec F S1024x1280 .f32) (ix2 p q) = xpad m c (ix2 ⟨1024 * (t.val / 50) + p.val, hr⟩ ⟨1280 * (t.val / 10 % 5) + q.val, hq⟩) := by
  obtain ⟨e0, e1⟩ := blockIdx2 t
  show V m c main_v0 (((cfg0.win 2).blk t).view.emb (ix2 p q)) = V m c main_v0 _
  refine congrArg _ ?_
  funext a; apply Fin.ext
  match a with
  | ⟨0, _⟩ => show win0_2.index t (0 : Fin 2) * 1024 + 1 * p.val = 1024 * (t.val / 50) + p.val; omega
  | ⟨1, _⟩ => show win0_2.index t (1 : Fin 2) * 1280 + 1 * q.val = 1280 * (t.val / 10 % 5) + q.val; omega

end Cert.KernelIdeal.Hand

end

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Tactic

variable (m : (ℓ : Loc nD τ sig) → Buf (Elt Ideal) ℓ)

/-- The padded x is x padded by 244 columns of the converted integer zero. -/
theorem xpad_eq (c : Dev nD) :
    (xpad (F := Ideal) m c : S2048x6400.Idx → EReal)
      = pad S2048x6400 ![0, 0] ![0, 244] ![0, 0] (xarg (F := Ideal) m c) (sitofp (F := Ideal) .f32 (constantI S_ 32 0#32))
          pads_S2048x6156_S2048x6400_000_02440 h_S_ := by
  dsimp only [xpad, V, V0]
  simp only [hostOps0, hostOps0_1, hostOps0_2, hostOps0_3, List.flatten_cons, List.flatten_nil, List.append_nil,
    List.cons_append, List.nil_append]
  after_results
  rfl

/-- The padded w_int is w_int padded by 244 rows and 244 columns of the converted integer zero. -/
theorem wpad_eq (c : Dev nD) :
    (wpad (F := Ideal) m c : S6400x6400.Idx → EReal)
      = pad S6400x6400 ![0, 0] ![244, 244] ![0, 0] (warg (F := Ideal) m c) (sitofp (F := Ideal) .f32 (constantI S_ 32 0#32))
          pads_S6156x6156_S6400x6400_02440_02440 h_S_ := by
  dsimp only [wpad, V, V0]
  simp only [hostOps0, hostOps0_1, hostOps0_2, hostOps0_3, List.flatten_cons, List.flatten_nil, List.append_nil,
    List.cons_append, List.nil_append]
  after_results
  rfl

/-- The padded x at an entry, on the extended reals: x inside the first 6156 columns, 0 beyond. -/
theorem xpad_apply (c : Dev nD) (r : Fin 2048) (k : Fin 6400) :
    xpad (F := Ideal) m c (ix2 r k) = if h : k.val < 6156 then xarg (F := Ideal) m c (ix2 r ⟨k.val, h⟩) else 0 := by
  refine (congrFun (xpad_eq m c) (ix2 r k)).trans ?_
  by_cases h : k.val < 6156
  · rw [dif_pos h]
    refine pad_apply_of_inside _ _ _ _ _ _ _ (ix2 r k) (ix2 r ⟨k.val, h⟩) (fun a => ?_)
    match a with
    | ⟨0, _⟩ => show r.val = 0 + r.val * (0 + 1); omega
    | ⟨1, _⟩ => show k.val = 0 + k.val * (0 + 1); omega
  · rw [dif_neg h]
    refine (pad_apply_of_not_inside _ _ _ _ _ _ _ (ix2 r k) (1 : Fin 2) ?_).trans ?_
    · show ¬(0 ≤ k.val ∧ (k.val - 0) % (0 + 1) = 0 ∧ (k.val - 0) / (0 + 1) < 6156)
      omega
    · exact sitofp_zero (φ := .f32)

/-- The padded w_int at an entry: w_int inside the first 6156 rows and columns, 0 beyond. -/
theorem wpad_apply (c : Dev nD) (q : Fin 6400) (k : Fin 6400) :
    wpad (F := Ideal) m c (ix2 q k) = if h : q.val < 6156 ∧ k.val < 6156 then warg (F := Ideal) m c (ix2 ⟨q.val, h.1⟩ ⟨k.val, h.2⟩) else 0 := by
  refine (congrFun (wpad_eq m c) (ix2 q k)).trans ?_
  by_cases h : q.val < 6156 ∧ k.val < 6156
  · rw [dif_pos h]
    refine pad_apply_of_inside _ _ _ _ _ _ _ (ix2 q k) (ix2 ⟨q.val, h.1⟩ ⟨k.val, h.2⟩) (fun a => ?_)
    match a with
    | ⟨0, _⟩ => show q.val = 0 + q.val * (0 + 1); omega
    | ⟨1, _⟩ => show k.val = 0 + k.val * (0 + 1); omega
  · rw [dif_neg h]
    by_cases hq : q.val < 6156
    · have hk : ¬ k.val < 6156 := fun hk => h ⟨hq, hk⟩
      refine (pad_apply_of_not_inside _ _ _ _ _ _ _ (ix2 q k) (1 : Fin 2) ?_).trans ?_
      · show ¬(0 ≤ k.val ∧ (k.val - 0) % (0 + 1) = 0 ∧ (k.val - 0) / (0 + 1) < 6156)
        omega
      · exact sitofp_zero (φ := .f32)
    · refine (pad_apply_of_not_inside _ _ _ _ _ _ _ (ix2 q k) (0 : Fin 2) ?_).trans ?_
      · show ¬(0 ≤ q.val ∧ (q.val - 0) % (0 + 1) = 0 ∧ (q.val - 0) / (0 + 1) < 6156)
        omega
      · exact sitofp_zero (φ := .f32)

end Cert.KernelIdeal.Hand

end
-- ==== Proof.KiValue.lean ====
/-
  The region's result on the extended reals: inside the first 2048 x 6156 entries, entry (r, q) of the output array
  after the run is x(r, q) times the sum over all 6156 contraction positions k of x(r, k) * w_int(q, k) — the ten
  640-wide partial sums the accumulator collects from a zero start, over the zero-padded operands, are that one sum.
-/
import proofs.«137312_j20169166422772_1_alg».proof.Proof.KiPieces
import proofs.«137312_j20169166422772_1_alg».proof.Proof.KiPay
import proofs.«137312_j20169166422772_1_alg».proof.Proof.KiBlocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## What each point leaves, by its case -/

private theorem snd_of_eq {α β : Type} {p : α × β} {a : α} {b : β} (h : p = (a, b)) : p.2 = b := by rw [h]
private theorem fst_of_eq {α β : Type} {p : α × β} {a : α} {b : β} (h : p = (a, b)) : p.1 = a := by rw [h]

section AnyInstance

variable {F : FTy → Type} [FloatOps F]
variable (m : (ℓ : Loc nD τ sig) → Buf (Elt F) ℓ)

/-- After a k = 0 point the accumulator is the update of the zero block. -/
private theorem acc_first (c : Dev nD) (t : Fin cfg0.N) (h0 : t.val % 10 = 0) :
    (outsAt m c t.val t.isLt).2 = k0_pay2 (iblk m c 0 t) (iblk m c 1 t) (k0_pay1 (F := F)) := by
  have h1 : ¬t.val % 10 = 9 := by omega
  have e := soutA_eq c (grid0.coords t) (ms0 t) (hs0 t) (ms1 t) (hs1 t) (ms2 t) (hs2 t) (ms3 t) (hs3 t) scM (Memref.isWhole_whole _)
    ((condFirst_iff t).mpr h0) (fun h => h1 ((condLast_iff t).mp h)) (iblk m c 0 t) (iblk m c 1 t) (iblk m c 2 t)
  have e2 := snd_of_eq (outsAt_A m c t h0 h1)
  exact e2.trans e

/-- After a later point it is the update of what the point before left. -/
private theorem acc_later (c : Dev nD) (t : Fin cfg0.N) (h0 : ¬t.val % 10 = 0) :
    (outsAt m c t.val t.isLt).2
      = k0_pay2 (iblk m c 0 t) (iblk m c 1 t) (outsAt m c (t.val - 1) (Nat.lt_of_le_of_lt (Nat.sub_le _ _) t.isLt)).2 := by
  by_cases h1 : t.val % 10 = 9
  · have e := soutC_eq c (grid0.coords t) (ms0 t) (hs0 t) (ms1 t) (hs1 t) (ms2 t) (hs2 t) (ms3 t) (hs3 t) scM (Memref.isWhole_whole _)
      (fun h => h0 ((condFirst_iff t).mp h)) ((condLast_iff t).mpr h1) (iblk m c 0 t) (iblk m c 1 t) (iblk m c 2 t)
      (outsAt m c (t.val - 1) (Nat.lt_of_le_of_lt (Nat.sub_le _ _) t.isLt)).2
    have e2 := snd_of_eq (outsAt_C m c t h0 h1)
    exact e2.trans e
  · have e := soutB_eq c (grid0.coords t) (ms0 t) (hs0 t) (ms1 t) (hs1 t) (ms2 t) (hs2 t) (ms3 t) (hs3 t) scM (Memref.isWhole_whole _)
      (fun h => h0 ((condFirst_iff t).mp h)) (fun h => h1 ((condLast_iff t).mp h)) (iblk m c 0 t) (iblk m c 1 t) (iblk m c 2 t)
      (outsAt m c (t.val - 1) (Nat.lt_of_le_of_lt (Nat.sub_le _ _) t.isLt)).2
    have e2 := snd_of_eq (outsAt_B m c t h0 h1)
    exact e2.trans e

/-- At a k = 9 point the output block is x_j times the updated accumulator. -/
private theorem out_last (c : Dev nD) (t : Fin cfg0.N) (h1 : t.val % 10 = 9) :
    (outsAt m c t.val t.isLt).1
      = k0_pay3 (iblk m c 2 t) (k0_pay2 (iblk m c 0 t) (iblk m c 1 t) (outsAt m c (t.val - 1) (Nat.lt_of_le_of_lt (Nat.sub_le _ _) t.isLt)).2) := by
  have h0 : ¬t.val % 10 = 0 := by omega
  have e := outC_eq c (grid0.coords t) (ms0 t) (hs0 t) (ms1 t) (hs1 t) (ms2 t) (hs2 t) (ms3 t) (hs3 t) scM (Memref.isWhole_whole _)
    (fun h => h0 ((condFirst_iff t).mp h)) ((condLast_iff t).mpr h1) (iblk m c 0 t) (iblk m c 1 t) (iblk m c 2 t)
    (outsAt m c (t.val - 1) (Nat.lt_of_le_of_lt (Nat.sub_le _ _) t.isLt)).2
  have e2 := fst_of_eq (outsAt_C m c t h0 h1)
  exact e2.trans e

end AnyInstance

/-! ## The contraction's terms and the accumulator after a point -/

variable (m : (ℓ : Loc nD τ sig) → Buf (Elt Ideal) ℓ)

/-- Term k of the padded contraction at padded row R and padded column Q (zero past the padded extent). -/
private def term (c : Dev nD) (R : Fin 2048) (Q : Fin 6400) (k : ℕ) : EReal :=
  if h : k < 6400 then xpad (F := Ideal) m c (ix2 R ⟨k, h⟩) * wpad (F := Ideal) m c (ix2 Q ⟨k, h⟩) else 0

/-- One update at an entry: the old accumulator plus the point's 640 terms. -/
private theorem step_apply (c : Dev nD) (t : Fin cfg0.N) (acc : Vec Ideal S1024x1280 .f32) (p : Fin 1024) (q : Fin 1280)
    (R : Fin 2048) (Q : Fin 6400) (hR : R.val = 1024 * (t.val / 50) + p.val) (hQ : Q.val = 1280 * (t.val / 10 % 5) + q.val) :
    k0_pay2 (F := Ideal) (iblk m c 0 t) (iblk m c 1 t) acc (ix2 p q)
      = acc (ix2 p q) + ∑ k ∈ Finset.range 640, term m c R Q (640 * (t.val % 10) + k) := by
  have hN : t.val < 100 := lt_of_lt_of_eq t.isLt (show cfg0.N = 100 from N_0)
  have hr : 1024 * (t.val / 50) + p.val < 2048 := hR ▸ R.isLt
  have hq : 1280 * (t.val / 10 % 5) + q.val < 6400 := hQ ▸ Q.isLt
  obtain rfl : R = ⟨1024 * (t.val / 50) + p.val, hr⟩ := Fin.ext hR
  obtain rfl : Q = ⟨1280 * (t.val / 10 % 5) + q.val, hq⟩ := Fin.ext hQ
  refine (pay2_apply (iblk m c 0 t) (iblk m c 1 t) acc p q).trans ?_
  refine congrArg (fun z => acc (ix2 p q) + z) ?_
  rw [Finset.sum_range]
  refine Finset.sum_congr rfl fun kk _ => ?_
  have hk : 640 * (t.val % 10) + kk.val < 6400 := by have := kk.isLt; omega
  rw [iblk0_apply m c t p kk hr hk, iblk1_apply m c t q kk hq hk]
  unfold term
  rw [dif_pos hk]

/-- The accumulator after point n, at an entry: the contraction's first 640 (k + 1) terms. -/
private theorem acc_inv (c : Dev nD) : ∀ (n : ℕ) (hn : n < cfg0.N) (p : Fin 1024) (q : Fin 1280) (R : Fin 2048) (Q : Fin 6400),
    R.val = 1024 * (n / 50) + p.val → Q.val = 1280 * (n / 10 % 5) + q.val →
    (outsAt (F := Ideal) m c n hn).2 (ix2 p q) = ∑ k ∈ Finset.range (640 * (n % 10 + 1)), term m c R Q k := by
  intro n
  induction n with
  | zero =>
    intro hn p q R Q hR hQ
    have e := acc_first m c ⟨0, hn⟩ (Nat.zero_mod _)
    refine (congrFun e (ix2 p q)).trans ?_
    refine (step_apply m c ⟨0, hn⟩ _ p q R Q hR hQ).trans ?_
    rw [pay1_apply, zero_add]
    simp only [Nat.zero_mod, Nat.mul_zero, Nat.zero_add, Nat.mul_one]
  | succ n ih =>
    intro hn p q R Q hR hQ
    have hN : n + 1 < 100 := lt_of_lt_of_eq hn N_0
    by_cases h0 : (n + 1) % 10 = 0
    · have e := acc_first m c ⟨n + 1, hn⟩ h0
      refine (congrFun e (ix2 p q)).trans ?_
      refine (step_apply m c ⟨n + 1, hn⟩ _ p q R Q hR hQ).trans ?_
      rw [pay1_apply, zero_add]
      show ∑ k ∈ Finset.range 640, term m c R Q (640 * ((n + 1) % 10) + k) = _
      rw [h0]
      simp only [Nat.mul_zero, Nat.zero_add, Nat.mul_one]
    · have e := acc_later m c ⟨n + 1, hn⟩ h0
      refine (congrFun e (ix2 p q)).trans ?_
      refine (step_apply m c ⟨n + 1, hn⟩ _ p q R Q hR hQ).trans ?_
      have ih' := ih (Nat.lt_of_succ_lt hn) p q R Q (by omega) (by omega)
      have hmod : (n + 1) % 10 = n % 10 + 1 := by omega
      have e1 : 640 * ((n + 1) % 10 + 1) = 640 * (n % 10 + 1) + 640 := by omega
      rw [e1, Finset.sum_range_add, ← ih']
      show (outsAt (F := Ideal) m c n _).2 (ix2 p q) + ∑ k ∈ Finset.range 640, term m c R Q (640 * ((n + 1) % 10) + k) = _
      rw [hmod]

/-! ## The output block at a k = 9 point, and the array after the run -/

/-- The output block stored at a k = 9 point, at an entry: x_pad there times the whole padded contraction. -/
private theorem out_apply (c : Dev nD) (t : Fin cfg0.N) (h1 : t.val % 10 = 9) (p : Fin 1024) (q : Fin 1280)
    (R : Fin 2048) (Q : Fin 6400) (hR : R.val = 1024 * (t.val / 50) + p.val) (hQ : Q.val = 1280 * (t.val / 10 % 5) + q.val) :
    (outsAt (F := Ideal) m c t.val t.isLt).1 (ix2 p q)
      = xpad (F := Ideal) m c (ix2 R Q) * ∑ k ∈ Finset.range 6400, term m c R Q k := by
  have hN : t.val < 100 := lt_of_lt_of_eq t.isLt (show cfg0.N = 100 from N_0)
  have hr : 1024 * (t.val / 50) + p.val < 2048 := hR ▸ R.isLt
  have hq : 1280 * (t.val / 10 % 5) + q.val < 6400 := hQ ▸ Q.isLt
  refine (congrFun (out_last m c t h1) (ix2 p q)).trans ?_
  refine (pay3_apply (iblk m c 2 t) _ p q).trans ?_
  rw [step_apply m c t _ p q R Q hR hQ,
    acc_inv m c (t.val - 1) (Nat.lt_of_le_of_lt (Nat.sub_le _ _) t.isLt) p q R Q (by omega) (by omega),
    iblk2_apply m c t p q hr hq]
  obtain rfl : R = ⟨1024 * (t.val / 50) + p.val, hr⟩ := Fin.ext hR
  obtain rfl : Q = ⟨1280 * (t.val / 10 % 5) + q.val, hq⟩ := Fin.ext hQ
  refine congrArg (fun z => xpad (F := Ideal) m c (ix2 (⟨1024 * (t.val / 50) + p.val, hr⟩ : Fin 2048) (⟨1280 * (t.val / 10 % 5) + q.val, hq⟩ : Fin 6400)) * z) ?_
  have ea : 640 * ((t.val - 1) % 10 + 1) = 5760 := by omega
  have eb : 640 * (t.val % 10) = 5760 := by omega
  rw [ea, eb]
  exact (Finset.sum_range_add _ 5760 640).symm

/-- Window 3's block index at a point: (row tile, column tile). -/
private theorem idx3 : ∀ t : Fin cfg0.N, win0_3.index t (0 : Fin 2) = t.val / 50 ∧ win0_3.index t (1 : Fin 2) = t.val / 10 % 5 :=
  (by decide +kernel : ∀ t : Fin grid0.N, win0_3.index t (0 : Fin 2) = t.val / 50 ∧ win0_3.index t (1 : Fin 2) = t.val / 10 % 5)

/-- What the output array ends holding: x_pad(R, Q) times the padded contraction at (R, Q). -/
private def Gout (c : Dev nD) : Vec Ideal S2048x6400 .f32 :=
  fun i => xpad (F := Ideal) m c i * ∑ k ∈ Finset.range 6400, term m c (i 0) (i 1) k

/-- What a k = 9 point writes back is its block of that array. -/
private theorem flushed_eq (c : Dev nD) (t : Fin cfg0.N) (hf : (cfg0.win 3).flush t = true) :
    (dats (F := Ideal) m 0 c).flushed 3 t = ((cfg0.win 3).blk t).view.read (Elt Ideal) (Gout m c) := by
  have h1 : t.val % 10 = 9 := (flush0_3 t).mp hf
  have hN : t.val < 100 := lt_of_lt_of_eq t.isLt (show cfg0.N = 100 from N_0)
  show (cfg0.win 3).cut (grid0.coords t) ((dats (F := Ideal) m 0 c).after 3 t) = _
  rw [after3]
  funext j
  obtain ⟨p, q, rfl⟩ : ∃ (p : Fin 1024) (q : Fin 1280), j = ix2 p q := ⟨j 0, j 1, eq_ix2 j⟩
  show (outsAt (F := Ideal) m c t.val t.isLt).1 (ix2 p q) = Gout m c (((cfg0.win 3).blk t).view.emb (ix2 p q))
  obtain ⟨e0, e1⟩ := idx3 t
  have hr : 1024 * (t.val / 50) + p.val < 2048 := by have := p.isLt; omega
  have hq : 1280 * (t.val / 10 % 5) + q.val < 6400 := by have := q.isLt; omega
  have hemb : ((cfg0.win 3).blk t).view.emb (ix2 p q)
      = ix2 (⟨1024 * (t.val / 50) + p.val, hr⟩ : Fin 2048) (⟨1280 * (t.val / 10 % 5) + q.val, hq⟩ : Fin 6400) := by
    funext a; apply Fin.ext
    match a with
    | ⟨0, _⟩ => show win0_3.index t (0 : Fin 2) * 1024 + 1 * p.val = 1024 * (t.val / 50) + p.val; rw [e0]; omega
    | ⟨1, _⟩ => show win0_3.index t (1 : Fin 2) * 1280 + 1 * q.val = 1280 * (t.val / 10 % 5) + q.val; rw [e1]; omega
  rw [hemb]
  exact out_apply m c t h1 p q _ _ rfl rfl

/-- An entry of the array lies in a point's output block iff each coordinate lies in the block's range. -/
private theorem mem_blk3 (t : Fin cfg0.N) (i : S2048x6400.Idx) :
    i ∈ ((cfg0.win 3).blk t).view.set ↔ ∀ a : Fin 2, win0_3.index t a * S1024x1280.size a ≤ (i a).val
      ∧ (i a).val < win0_3.index t a * S1024x1280.size a + S1024x1280.size a := by
  show i ∈ ((View.whole main_v2).slice (win0_3.rect t)).set ↔ _
  rw [View.set_slice_whole, Rect.mem_set_unit]
  exact Iff.rfl

/-- The output array after the run: the k = 9 points' blocks tile it. -/
private theorem final3 (c : Dev nD) : (dats (F := Ideal) m 0 c).arrAt 3 cfg0.N = Gout m c :=
  (dats (F := Ideal) m 0 c).arrAt_eq_of_cover 3 (Gout m c) (flushed_eq m c) fun i => by
    have hi0 : (i 0).val < 2048 := idx2_lt0 i
    have hi1 : (i 1).val < 6400 := idx2_lt1 i
    have hlt : 50 * ((i 0).val / 1024) + 10 * ((i 1).val / 1280) + 9 < cfg0.N :=
      lt_of_lt_of_eq (by omega : 50 * ((i 0).val / 1024) + 10 * ((i 1).val / 1280) + 9 < 100) (show cfg0.N = 100 from N_0).symm
    refine ⟨⟨50 * ((i 0).val / 1024) + 10 * ((i 1).val / 1280) + 9, hlt⟩, (flush0_3 _).mpr (by dsimp only; omega), ?_⟩
    rw [mem_blk3]
    obtain ⟨e0, e1⟩ := idx3 ⟨50 * ((i 0).val / 1024) + 10 * ((i 1).val / 1280) + 9, hlt⟩
    intro a
    match a with
    | ⟨0, _⟩ =>
      show win0_3.index _ (0 : Fin 2) * 1024 ≤ (i 0).val ∧ (i 0).val < win0_3.index _ (0 : Fin 2) * 1024 + 1024
      rw [e0]; dsimp only; omega
    | ⟨1, _⟩ =>
      show win0_3.index _ (1 : Fin 2) * 1280 ≤ (i 1).val ∧ (i 1).val < win0_3.index _ (1 : Fin 2) * 1280 + 1280
      rw [e1]; dsimp only; omega

/-- Inside the first 6156 columns the padded contraction is the contraction of x and w_int: past position 6156 both
    padded operands are zero. -/
private theorem rowsum_eq (c : Dev nD) (r : Fin 2048) (Q : Fin 6400) (hQ : Q.val < 6156) :
    ∑ k ∈ Finset.range 6400, term m c r Q k
      = ∑ k : Fin 6156, xarg (F := Ideal) m c (ix2 r k) * warg (F := Ideal) m c (ix2 (⟨Q.val, hQ⟩ : Fin 6156) k) := by
  have hz : ∀ x, term m c r Q (6156 + x) = 0 := by
    intro x
    unfold term
    split
    · next h =>
      rw [xpad_apply, dif_neg (by show ¬6156 + x < 6156; omega), zero_mul]
    · rfl
  refine (Finset.sum_range_add (term m c r Q) 6156 244).trans ?_
  rw [Finset.sum_eq_zero (fun x _ => hz x), add_zero, Finset.sum_range]
  refine Finset.sum_congr rfl fun k _ => ?_
  have hk : k.val < 6400 := by have := k.isLt; omega
  unfold term
  rw [dif_pos hk, xpad_apply, dif_pos k.isLt, wpad_apply, dif_pos ⟨hQ, k.isLt⟩]

theorem kernel_inter (c : Dev nD) (r : Fin 2048) (q : Fin 6156) :
    ((dats (F := Ideal) m 0 c).arrAt 3 cfg0.N : Vec Ideal S2048x6400 .f32) (ix2 r ⟨q.val, by omega⟩)
      = xarg (F := Ideal) m c (ix2 r q) * ∑ k : Fin 6156, xarg (F := Ideal) m c (ix2 r k) * warg (F := Ideal) m c (ix2 q k) := by
  have hq : q.val < 6400 := by have := q.isLt; omega
  refine (congrFun (final3 m c) (ix2 r (⟨q.val, hq⟩ : Fin 6400))).trans ?_
  show xpad (F := Ideal) m c (ix2 r (⟨q.val, hq⟩ : Fin 6400)) * ∑ k ∈ Finset.range 6400, term m c r (⟨q.val, hq⟩ : Fin 6400) k = _
  rw [rowsum_eq m c r ⟨q.val, hq⟩ q.isLt, xpad_apply, dif_pos q.isLt]

end Cert.KernelIdeal.Hand

end
-- ==== Proof.Bridge.lean ====
/-
  The two programs' results are one function of the arguments, on the extended reals.

  The reference's interaction term at entry (r, q) is x(r, q) times the sum over k of x(r, k) * w_int(q, k) (its
  dot_general against the transposed w_int is that sum). The kernel's host tail slices the region's result to its
  first 6156 columns; given that the region's result has that same entry there, the two composed terms — the same
  linear head, join, final product and bias on both sides — are equal.
-/
import proofs.«137312_j20169166422772_1_alg».proof.Proof.KiTail
import proofs.«137312_j20169166422772_1_alg».proof.Proof.Gen.ReferenceIdeal.Run
import proofs.«137312_j20169166422772_1_alg».proof.Proof.Gen.ReferenceIdeal.Read
import proofs.«137312_j20169166422772_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge

open Idealize.ShloMosaic Idealize.ShloMosaic.ValueIdx

/-- The reference's interaction term at an entry. -/
theorem ref_inter (x : FVec Ideal Cert.ReferenceIdeal.S2048x6156 .f32) (w : FVec Ideal Cert.ReferenceIdeal.S6156x6156 .f32) (r : Fin 2048) (q : Fin 6156) :
    mulf (F := Ideal) x (Host.dotGeneral Cert.ReferenceIdeal.dot_S2048x6156_S6156x6156_S2048x6156_1_0_0_1_n_n none x
        (transpose Cert.ReferenceIdeal.S6156x6156 [1, 0] w Cert.ReferenceIdeal.Gen.transposes_S6156x6156_S6156x6156_1_0)) (ix2 r q)
      = x (ix2 r q) * ∑ k : Fin 6156, x (ix2 r k) * w (ix2 q k) := by
  rw [mulf_apply]
  congr 1
  refine (Cert.PlainDot.dotGeneral_apply Cert.ReferenceIdeal.dot_S2048x6156_S6156x6156_S2048x6156_1_0_0_1_n_n rfl rfl rfl rfl rfl rfl none .single x _ r q).trans ?_
  refine Finset.sum_congr rfl fun k _ => ?_
  congr 1
  exact transpose_apply [1, 0] w Cert.ReferenceIdeal.Gen.transposes_S6156x6156_S6156x6156_1_0 (ix2 k q) (ix2 q k) (fun b => match b with
    | ⟨0, _⟩ => rfl
    | ⟨1, _⟩ => rfl)

/-- The kernel's tail over a region result with the reference's entries is the reference's composed term. -/
theorem tail_bridge (x0 : FVec Ideal Cert.KernelIdeal.S2048x6156 .f32) (x1 : FVec Ideal Cert.KernelIdeal.S3x6156 .f32) (x2 : FVec Ideal Cert.KernelIdeal.S3 .f32)
    (x3 : FVec Ideal Cert.KernelIdeal.S6156x6156 .f32) (x4 : FVec Ideal Cert.KernelIdeal.S3x6159 .f32) (x5 : FVec Ideal Cert.KernelIdeal.S3 .f32)
    (a : FVec Ideal Cert.KernelIdeal.S2048x6400 .f32)
    (ha : ∀ (r : Fin 2048) (q : Fin 6156), a (ix2 r ⟨q.val, by omega⟩) = x0 (ix2 r q) * ∑ k : Fin 6156, x0 (ix2 r k) * x3 (ix2 q k)) :
    Cert.KernelIdeal.Hand.tailTerm (F := Ideal) x0 x1 x2 x4 x5 a
      = addf (Host.dotGeneral Cert.ReferenceIdeal.dot_S2048x6159_S6159x3_S2048x3_1_0_0_1_n_n none (concatenate Cert.ReferenceIdeal.S2048x6159 1 [⟨Cert.ReferenceIdeal.S2048x3, (addf (Host.dotGeneral Cert.ReferenceIdeal.dot_S2048x6156_S6156x3_S2048x3_1_0_0_1_n_n none x0 (transpose Cert.ReferenceIdeal.S6156x3 [1, 0] x1 Cert.ReferenceIdeal.Gen.transposes_S3x6156_S6156x3_1_0)) (broadcastInDim Cert.ReferenceIdeal.S2048x3 ![0, 1] Cert.ReferenceIdeal.Gen.bcast_S1x3_S2048x3_0_1 (broadcastInDim Cert.ReferenceIdeal.S1x3 ![1] Cert.ReferenceIdeal.Gen.bcast_S3_S1x3_1 x2)))⟩, ⟨Cert.ReferenceIdeal.S2048x6156, (mulf x0 (Host.dotGeneral Cert.ReferenceIdeal.dot_S2048x6156_S6156x6156_S2048x6156_1_0_0_1_n_n none x0 (transpose Cert.ReferenceIdeal.S6156x6156 [1, 0] x3 Cert.ReferenceIdeal.Gen.transposes_S6156x6156_S6156x6156_1_0)))⟩] Cert.ReferenceIdeal.Gen.concatenates_S2048x3_S2048x6156_S2048x6159_d1) (transpose Cert.ReferenceIdeal.S6159x3 [1, 0] x4 Cert.ReferenceIdeal.Gen.transposes_S3x6159_S6159x3_1_0)) (broadcastInDim Cert.ReferenceIdeal.S2048x3 ![0, 1] Cert.ReferenceIdeal.Gen.bcast_S1x3_S2048x3_0_1 (broadcastInDim Cert.ReferenceIdeal.S1x3 ![1] Cert.ReferenceIdeal.Gen.bcast_S3_S1x3_1 x5)) := by
  have hs : extractStridedSlice Cert.KernelIdeal.S2048x6156 ![0, 0] a Cert.KernelIdeal.Gen.slices_S2048x6400_S2048x6156_0_0
      = mulf (F := Ideal) x0 (Host.dotGeneral Cert.ReferenceIdeal.dot_S2048x6156_S6156x6156_S2048x6156_1_0_0_1_n_n none x0
          (transpose Cert.ReferenceIdeal.S6156x6156 [1, 0] x3 Cert.ReferenceIdeal.Gen.transposes_S6156x6156_S6156x6156_1_0)) := by
    funext i
    obtain ⟨r, q, rfl⟩ : ∃ (r : Fin 2048) (q : Fin 6156), i = ix2 r q := ⟨i 0, i 1, eq_ix2 i⟩
    refine (extractStridedSlice_apply ![0, 0] a Cert.KernelIdeal.Gen.slices_S2048x6400_S2048x6156_0_0 (ix2 r q)
      (ix2 r (⟨q.val, by omega⟩ : Fin 6400)) (fun b => match b with
        | ⟨0, _⟩ => by show r.val = 0 + r.val; omega
        | ⟨1, _⟩ => by show q.val = 0 + q.val; omega)).trans ?_
    rw [ha r q]
    exact (ref_inter x0 x3 r q).symm
  unfold Cert.KernelIdeal.Hand.tailTerm
  rw [hs]
  rfl

end Cert.Bridge

end
-- ==== Proof.lean ====
/-
  InteractionLogisticRegression: logits = concat(x lin_w^T + lin_b, x * (x w_int^T)) fin_w^T + fin_b, a Pallas kernel
  for the interaction term against the plain reference.

  The kernel pads x to 2048 x 6400 and w_int to 6400 x 6400 with zeros, and on a 2 x 5 x 10 grid accumulates, for
  each 1024 x 1280 output tile, ten 640-wide partial products x_k w_k^T (operands cast to bf16, the identity on the
  extended reals) into a scratch accumulator zeroed at the first of the ten; at the tenth it stores x_j times the
  accumulator. The host then drops the padding columns and finishes exactly as the reference does.

  On the extended reals the ten partial sums from a zero start are one sum over 6400 positions (only associativity and
  commutativity of addition and 0 + a = a are used), the 244 padded positions contribute 0 * 0 = 0, so entry (r, q) of
  the region's result is x(r, q) * sum_k x(r, k) w_int(q, k): the reference's x * (x w_int^T) there. The two programs
  then apply the same linear head, join, final product and bias. No finiteness of the inputs is needed.

  The frames: each program runs to the end without a fault and leaves its six arguments as they were. For the two
  kernel programs this is the run of @main as host stretches around the one kernel region, the padded x — read through
  two windows — held at one half of the full share per window; for the reference it is its run with the result dropped.
  The ideal pass rewrote no operation, so there is nothing to preserve.
-/
import proofs.«137312_j20169166422772_1_alg».proof.Defs
import proofs.«137312_j20169166422772_1_alg».proof.Proof.Gen.Kernel
import proofs.«137312_j20169166422772_1_alg».proof.Proof.Gen.KernelIdeal
import proofs.«137312_j20169166422772_1_alg».proof.Proof.Gen.ReferenceIdeal
import proofs.«137312_j20169166422772_1_alg».proof.Proof.Gen.Pre_finite_inputs
import proofs.«137312_j20169166422772_1_alg».proof.Proof.Gen.ReferenceIdeal.Run
import proofs.«137312_j20169166422772_1_alg».proof.Proof.Gen.ReferenceIdeal.Read
import proofs.«137312_j20169166422772_1_alg».proof.Proof.KbEnd
import proofs.«137312_j20169166422772_1_alg».proof.Proof.KiEnd
import proofs.«137312_j20169166422772_1_alg».proof.Proof.KiValue
import proofs.«137312_j20169166422772_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel's is the shared tail
    over the region's result array, whose entries inside the first 6156 columns are the reference's interaction term. -/
theorem algebraic : Cert.algebraic_KernelIdeal_ReferenceIdeal := by
  intro m ρ m' ρ' _ hagree
  refine ⟨_, Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5]
  exact (Cert.Bridge.tail_bridge _ _ _ _ _ _ _ (Cert.KernelIdeal.Hand.kernel_inter m c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
